-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x64x64x64 : Shape := ⟨5, ![4, 64, 64, 64, 64]⟩
abbrev S_ : Shape := ⟨0, ![]⟩

class Facts : Prop where
  bcast_S_S4x64x64x64x64 : S_.BroadcastsInDim S4x64x64x64x64 (![] : Fin 0 → Fin S4x64x64x64x64.rank)
  reducesTo_S4x64x64x64x64_S_d0_1_2_3_4 : S4x64x64x64x64.ReducesTo [0, 1, 2, 3, 4] S_
  h_S_ : 0 < S_.numel

variable [Facts]

def fn {F : FTy → Type} [FloatOps F] (main_arg0 : FVec F S4x64x64x64x64 .f32) : IVec S_ 1 :=
  let main_v0 : FVec F S4x64x64x64x64 .f32 := Host.absf main_arg0
  let main_cst : FVec F S_ .f32 := constant S_ .f32 0x7F800000#32
  let main_v1 : FVec F S4x64x64x64x64 .f32 := broadcastInDim S4x64x64x64x64 ![] bcast_S_S4x64x64x64x64 main_cst
  let main_v2 : IVec S4x64x64x64x64 1 := cmpf .olt main_v0 main_v1
  let main_c : IVec S_ 1 := constantI S_ 1 1#1
  let main_v3 : IVec S_ 1 := (fun x v => Host.reduce IntOp.andi x v reducesTo_S4x64x64x64x64_S_d0_1_2_3_4 h_S_) main_v2 main_c
  main_v3
-- ==== Kernel.lean ====
abbrev S4x64x64x64x64 : Shape := ⟨5, ![4, 64, 64, 64, 64]⟩
abbrev S4x1x1x1x64 : Shape := ⟨5, ![4, 1, 1, 1, 64]⟩
abbrev S4x2x2x2x64 : Shape := ⟨5, ![4, 2, 2, 2, 64]⟩
abbrev S4x4x4x4x64 : Shape := ⟨5, ![4, 4, 4, 4, 64]⟩
abbrev S1x8x64x64x64 : Shape := ⟨5, ![1, 8, 64, 64, 64]⟩
abbrev S1x1x1x1x64 : Shape := ⟨5, ![1, 1, 1, 1, 64]⟩
abbrev S1x1x2x2x64 : Shape := ⟨5, ![1, 1, 2, 2, 64]⟩
abbrev S1x1x4x4x64 : Shape := ⟨5, ![1, 1, 4, 4, 64]⟩
abbrev S8x64x64x64 : Shape := ⟨4, ![8, 64, 64, 64]⟩
abbrev S64x64x64 : Shape := ⟨3, ![64, 64, 64]⟩
abbrev S1x64x1x64x64 : Shape := ⟨5, ![1, 64, 1, 64, 64]⟩
abbrev S1x64x1x64 : Shape := ⟨4, ![1, 64, 1, 64]⟩
abbrev S1x1x64 : Shape := ⟨3, ![1, 1, 64]⟩
abbrev S2x32x2x32x64 : Shape := ⟨5, ![2, 32, 2, 32, 64]⟩
abbrev S2x32x2x64 : Shape := ⟨4, ![2, 32, 2, 64]⟩
abbrev S2x2x64 : Shape := ⟨3, ![2, 2, 64]⟩
abbrev S4x16x4x16x64 : Shape := ⟨5, ![4, 16, 4, 16, 64]⟩
abbrev S4x16x4x64 : Shape := ⟨4, ![4, 16, 4, 64]⟩
abbrev S4x4x64 : Shape := ⟨3, ![4, 4, 64]⟩
abbrev S1x1x1x64 : Shape := ⟨4, ![1, 1, 1, 64]⟩
abbrev S1x2x2x64 : Shape := ⟨4, ![1, 2, 2, 64]⟩
abbrev S1x4x4x64 : Shape := ⟨4, ![1, 4, 4, 64]⟩
abbrev S4x64 : Shape := ⟨2, ![4, 64]⟩
abbrev S4x512 : Shape := ⟨2, ![4, 512]⟩
abbrev S4x4096 : Shape := ⟨2, ![4, 4096]⟩
abbrev S4x4672 : Shape := ⟨2, ![4, 4672]⟩

abbrev nBuf : Space → Nat
  | .hbm => 8
  | .vmem => 8
  | .smem => 0
  | _ => 0

abbrev bufTy : (tb : Table) → Fin (tcTables nBuf tb) → BufTy
  | .hbm, ⟨0, _⟩ => ⟨S4x64x64x64x64, .f32⟩
  | .hbm, ⟨1, _⟩ => ⟨S4x1x1x1x64, .f32⟩
  | .hbm, ⟨2, _⟩ => ⟨S4x2x2x2x64, .f32⟩
  | .hbm, ⟨3, _⟩ => ⟨S4x4x4x4x64, .f32⟩
  | .hbm, ⟨4, _⟩ => ⟨S4x64, .f32⟩
  | .hbm, ⟨5, _⟩ => ⟨S4x512, .f32⟩
  | .hbm, ⟨6, _⟩ => ⟨S4x4096, .f32⟩
  | .hbm, ⟨7, _⟩ => ⟨S4x4672, .f32⟩
  | .local _ .vmem, ⟨0, _⟩ => ⟨S1x8x64x64x64, .f32⟩
  | .local _ .vmem, ⟨1, _⟩ => ⟨S1x8x64x64x64, .f32⟩
  | .local _ .vmem, ⟨2, _⟩ => ⟨S1x1x1x1x64, .f32⟩
  | .local _ .vmem, ⟨3, _⟩ => ⟨S1x1x1x1x64, .f32⟩
  | .local _ .vmem, ⟨4, _⟩ => ⟨S1x1x2x2x64, .f32⟩
  | .local _ .vmem, ⟨5, _⟩ => ⟨S1x1x2x2x64, .f32⟩
  | .local _ .vmem, ⟨6, _⟩ => ⟨S1x1x4x4x64, .f32⟩
  | .local _ .vmem, ⟨7, _⟩ => ⟨S1x1x4x4x64, .f32⟩
  | _, _ => ⟨S4x64x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v12 : BitVec 1 := Scalar.cmpi .eq arg1 c0_i32
  let v13 : BitVec 32 := Scalar.extui v12
  let c0_i32_10 : BitVec 32 := 0#32
  let v14 : BitVec 1 := Scalar.cmpi .ne v13 c0_i32_10
  v14

def k0_cond2 (i : grid0.Coords) : BitVec 1 :=
  let arg1 : BitVec 32 := BitVec.ofNat 32 (i 1).val
  let c0_i32_11 : BitVec 32 := 0#32
  let v15 : BitVec 1 := Scalar.cmpi .ne arg1 c0_i32_11
  let v16 : BitVec 32 := Scalar.extui v15
  let c0_i32_12 : BitVec 32 := 0#32
  let v17 : BitVec 1 := Scalar.cmpi .ne v16 c0_i32_12
  v17

def k0_cond3 (i : grid0.Coords) : BitVec 1 :=
  let arg1 : BitVec 32 := BitVec.ofNat 32 (i 1).val
  let c4_i32 : BitVec 32 := 4#32
  let c0_i32_13 : BitVec 32 := 0#32
  let v18 : BitVec 1 := Scalar.cmpi .eq c4_i32 c0_i32_13
  let c1_i32 : BitVec 32 := 1#32
  let v19 : BitVec 32 := Scalar.select v18 c1_i32 c4_i32
  let v20 : BitVec 32 := Scalar.remsi arg1 v19
  let c0_i32_15 : BitVec 32 := 0#32
  let v22 : BitVec 1 := Scalar.cmpi .slt v20 c0_i32_15
  let c0_i32_16 : BitVec 32 := 0#32
  let v23 : BitVec 1 := Scalar.cmpi .slt v19 c0_i32_16
  let v24 : BitVec 1 := Scalar.xori v22 v23
  let c0_i32_14 : BitVec 32 := 0#32
  let v21 : BitVec 1 := Scalar.cmpi .ne v20 c0_i32_14
  let v25 : BitVec 1 := Scalar.andi v24 v21
  let v26 : BitVec 32 := Scalar.addi v20 v19
  let v27 : BitVec 32 := Scalar.select v25 v26 v20
  let c0_i32_17 : BitVec 32 := 0#32
  let v28 : BitVec 1 := Scalar.cmpi .eq v27 c0_i32_17
  let v29 : BitVec 32 := Scalar.extui v28
  let c0_i32_18 : BitVec 32 := 0#32
  let v30 : BitVec 1 := Scalar.cmpi .ne v29 c0_i32_18
  v30

def k0_cond4 (i : grid0.Coords) : BitVec 1 :=
  let arg1 : BitVec 32 := BitVec.ofNat 32 (i 1).val
  let c4_i32 : BitVec 32 := 4#32
  let c0_i32_13 : BitVec 32 := 0#32
  let v18 : BitVec 1 := Scalar.cmpi .eq c4_i32 c0_i32_13
  let c1_i32 : BitVec 32 := 1#32
  let v19 : BitVec 32 := Scalar.select v18 c1_i32 c4_i32
  let v20 : BitVec 32 := Scalar.remsi arg1 v19
  let c0_i32_15 : BitVec 32 := 0#32
  let v22 : BitVec 1 := Scalar.cmpi .slt v20 c0_i32_15
  let c0_i32_16 : BitVec 32 := 0#32
  let v23 : BitVec 1 := Scalar.cmpi .slt v19 c0_i32_16
  let v24 : BitVec 1 := Scalar.xori v22 v23
  let c0_i32_14 : BitVec 32 := 0#32
  let v21 : BitVec 1 := Scalar.cmpi .ne v20 c0_i32_14
  let v25 : BitVec 1 := Scalar.andi v24 v21
  let v26 : BitVec 32 := Scalar.addi v20 v19
  let v27 : BitVec 32 := Scalar.select v25 v26 v20
  let c0_i32_19 : BitVec 32 := 0#32
  let v31 : BitVec 1 := Scalar.cmpi .ne v27 c0_i32_19
  let v32 : BitVec 32 := Scalar.extui v31
  let c0_i32_20 : BitVec 32 := 0#32
  let v33 : BitVec 1 := Scalar.cmpi .ne v32 c0_i32_20
  v33

def k0_cond5 (i : grid0.Coords) : BitVec 1 :=
  let arg1 : BitVec 32 := BitVec.ofNat 32 (i 1).val
  let c2_i32 : BitVec 32 := 2#32
  let c0_i32_21 : BitVec 32 := 0#32
  let v34 : BitVec 1 := Scalar.cmpi .eq c2_i32 c0_i32_21
  let c1_i32_22 : BitVec 32 := 1#32
  let v35 : BitVec 32 := Scalar.select v34 c1_i32_22 c2_i32
  let v36 : BitVec 32 := Scalar.remsi arg1 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c0_i32_26 : BitVec 32 := 0#32
  let v44 : BitVec 1 := Scalar.cmpi .eq v43 c0_i32_26
  let v45 : BitVec 32 := Scalar.extui v44
  let c0_i32_27 : BitVec 32 := 0#32
  let v46 : BitVec 1 := Scalar.cmpi .ne v45 c0_i32_27
  v46

def k0_cond6 (i : grid0.Coords) : BitVec 1 :=
  let arg1 : BitVec 32 := BitVec.ofNat 32 (i 1).val
  let c2_i32 : BitVec 32 := 2#32
  let c0_i32_21 : BitVec 32 := 0#32
  let v34 : BitVec 1 := Scalar.cmpi .eq c2_i32 c0_i32_21
  let c1_i32_22 : BitVec 32 := 1#32
  let v35 : BitVec 32 := Scalar.select v34 c1_i32_22 c2_i32
  let v36 : BitVec 32 := Scalar.remsi arg1 v35
  let c0_i32_24 : BitVec 32 := 0#32
  let v38 : BitVec 1 := Scalar.cmpi .slt v36 c0_i32_24
  let c0_i32_25 : BitVec 32 := 0#32
  let v39 : BitVec 1 := Scalar.cmpi .slt v35 c0_i32_25
  let v40 : BitVec 1 := Scalar.xori v38 v39
  let c0_i32_23 : BitVec 32 := 0#32
  let v37 : BitVec 1 := Scalar.cmpi .ne v36 c0_i32_23
  let v41 : BitVec 1 := Scalar.andi v40 v37
  let v42 : BitVec 32 := Scalar.addi v36 v35
  let v43 : BitVec 32 := Scalar.select v41 v42 v36
  let c0_i32_28 : BitVec 32 := 0#32
  let v47 : BitVec 1 := Scalar.cmpi .ne v43 c0_i32_28
  let v48 : BitVec 32 := Scalar.extui v47
  let c0_i32_29 : BitVec 32 := 0#32
  let v49 : BitVec 1 := Scalar.cmpi .ne v48 c0_i32_29
  v49

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 5 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

def cc0_transform_3 (i : grid0.Coords) : Fin 5 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  let c0_i32_7 : BitVec 32 := 0#32
  ![arg0.toNat, v16.toNat, c0_i32_4.toNat, c0_i32_5.toNat, c0_i32_6.toNat]

abbrev stage0_0 : Fin 2 → Memref sig .tc .vmem S1x8x64x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x1x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2x2x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x4x4x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x8x64x64x64_S1x8x64x64x64_0_0_0_0_0 : ∀ a, (![0, 0, 0, 0, 0] : Fin 5 → Nat) a + S1x8x64x64x64.size a ≤ S1x8x64x64x64.size a
  h_S1x8x64x64x64 : 0 < S1x8x64x64x64.numel
  shapeCasts_S1x8x64x64x64_S8x64x64x64 : S1x8x64x64x64.ShapeCasts S8x64x64x64
  reduces_S8x64x64x64_S64x64x64 : S8x64x64x64.Reduces [0] S64x64x64
  shapeCasts_S64x64x64_S1x64x1x64x64 : S64x64x64.ShapeCasts S1x64x1x64x64
  reduces_S1x64x1x64x64_S1x64x1x64 : S1x64x1x64x64.Reduces [3] S1x64x1x64
  reduces_S1x64x1x64_S1x1x64 : S1x64x1x64.Reduces [1] S1x1x64
  shapeCasts_S64x64x64_S2x32x2x32x64 : S64x64x64.ShapeCasts S2x32x2x32x64
  reduces_S2x32x2x32x64_S2x32x2x64 : S2x32x2x32x64.Reduces [3] S2x32x2x64
  reduces_S2x32x2x64_S2x2x64 : S2x32x2x64.Reduces [1] S2x2x64
  shapeCasts_S64x64x64_S4x16x4x16x64 : S64x64x64.ShapeCasts S4x16x4x16x64
  reduces_S4x16x4x16x64_S4x16x4x64 : S4x16x4x16x64.Reduces [3] S4x16x4x64
  reduces_S4x16x4x64_S4x4x64 : S4x16x4x64.Reduces [1] S4x4x64
  shapeCasts_S1x1x64_S1x1x1x64 : S1x1x64.ShapeCasts S1x1x1x64
  inb_S1x1x1x1x64_S1x1x1x1x64_0_0_0_0_0 : ∀ a, (![0, 0, 0, 0, 0] : Fin 5 → Nat) a + S1x1x1x1x64.size a ≤ S1x1x1x1x64.size a
  h_S1x1x1x1x64 : 0 < S1x1x1x1x64.numel
  shapeCasts_S1x1x1x1x64_S1x1x1x64 : S1x1x1x1x64.ShapeCasts S1x1x1x64
  shapeCasts_S1x1x1x64_S1x1x1x1x64 : S1x1x1x64.ShapeCasts S1x1x1x1x64
  shapeCasts_S2x2x64_S1x2x2x64 : S2x2x64.ShapeCasts S1x2x2x64
  inb_S1x1x2x2x64_S1x1x2x2x64_0_0_0_0_0 : ∀ a, (![0, 0, 0, 0, 0] : Fin 5 → Nat) a + S1x1x2x2x64.size a ≤ S1x1x2x2x64.size a
  h_S1x1x2x2x64 : 0 < S1x1x2x2x64.numel
  shapeCasts_S1x1x2x2x64_S1x2x2x64 : S1x1x2x2x64.ShapeCasts S1x2x2x64
  shapeCasts_S1x2x2x64_S1x1x2x2x64 : S1x2x2x64.ShapeCasts S1x1x2x2x64
  shapeCasts_S4x4x64_S1x4x4x64 : S4x4x64.ShapeCasts S1x4x4x64
  inb_S1x1x4x4x64_S1x1x4x4x64_0_0_0_0_0 : ∀ a, (![0, 0, 0, 0, 0] : Fin 5 → Nat) a + S1x1x4x4x64.size a ≤ S1x1x4x4x64.size a
  h_S1x1x4x4x64 : 0 < S1x1x4x4x64.numel
  shapeCasts_S1x1x4x4x64_S1x4x4x64 : S1x1x4x4x64.ShapeCasts S1x4x4x64
  shapeCasts_S1x4x4x64_S1x1x4x4x64 : S1x4x4x64.ShapeCasts S1x1x4x4x64
  shapeCasts_S4x1x1x1x64_S4x64 : S4x1x1x1x64.ShapeCasts S4x64
  shapeCasts_S4x2x2x2x64_S4x512 : S4x2x2x2x64.ShapeCasts S4x512
  shapeCasts_S4x4x4x4x64_S4x4096 : S4x4x4x4x64.ShapeCasts S4x4096
  concatenates_S4x64_S4x512_S4x4096_S4x4672_d1 : Shape.Concatenates [S4x64, S4x512, S4x4096] S4x4672 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x8x64x64x64.size a ≤ S4x64x64x64x64.size a
  hwx0_0 : ∀ i : grid0.Coords, EltTy.bits .f32 = 32 ∨ (Rect.block (s := S4x64x64x64x64) S1x8x64x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x1x1x64.size a ≤ S4x1x1x1x64.size a
  hwx0_1 : ∀ i : grid0.Coords, EltTy.bits .f32 = 32 ∨ (Rect.block (s := S4x1x1x1x64) S1x1x1x1x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2x2x64.size a ≤ S4x2x2x2x64.size a
  hwx0_2 : ∀ i : grid0.Coords, EltTy.bits .f32 = 32 ∨ (Rect.block (s := S4x2x2x2x64) S1x1x2x2x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x4x4x64.size a ≤ S4x4x4x4x64.size a
  hwx0_3 : ∀ i : grid0.Coords, EltTy.bits .f32 = 32 ∨ (Rect.block (s := S4x4x4x4x64) S1x1x4x4x64.size (cc0_transform_3 i) (hinb0_3 i)).WholeWords (EltTy.packing .f32)

variable [Facts₀]

abbrev win0_0 : Pipeline.Window sig grid0 :=
  Pipeline.Window.ofSpec (Memref.whole main_arg0) S1x8x64x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0_0) S1x1x1x1x64.size cc0_transform_1 reads0_1 true false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_1) S1x1x2x2x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_2) S1x1x4x4x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun i => !(k0_cond1 i == 1#1) && !(k0_cond2 i == 1#1) | 2 => fun i => !(k0_cond3 i == 1#1) && !(k0_cond4 i == 1#1) | 3 => fun i => !(k0_cond5 i == 1#1) && !(k0_cond6 i == 1#1) | ⟨_ + 4, h⟩ => absurd h (Nat.not_lt.2 (Nat.le_add_left _ _))

class Facts : Prop extends Facts₀ where

variable [Facts]
-- ==== ReferenceIdeal.lean ====
abbrev S4x64x64x64x64 : Shape := ⟨5, ![4, 64, 64, 64, 64]⟩
abbrev S4x1x64x1x64x1x64x64 : Shape := ⟨8, ![4, 1, 64, 1, 64, 1, 64, 64]⟩
abbrev S_ : Shape := ⟨0, ![]⟩
abbrev S4x1x1x1x64 : Shape := ⟨5, ![4, 1, 1, 1, 64]⟩
abbrev S4x64 : Shape := ⟨2, ![4, 64]⟩
abbrev S4x2x32x2x32x2x32x64 : Shape := ⟨8, ![4, 2, 32, 2, 32, 2, 32, 64]⟩
abbrev S4x2x2x2x64 : Shape := ⟨5, ![4, 2, 2, 2, 64]⟩
abbrev S4x512 : Shape := ⟨2, ![4, 512]⟩
abbrev S4x4x16x4x16x4x16x64 : Shape := ⟨8, ![4, 4, 16, 4, 16, 4, 16, 64]⟩
abbrev S4x4x4x4x64 : Shape := ⟨5, ![4, 4, 4, 4, 64]⟩
abbrev S4x4096 : Shape := ⟨2, ![4, 4096]⟩
abbrev S4x4672 : Shape := ⟨2, ![4, 4672]⟩

abbrev nBuf : Space → Nat
  | .hbm => 14
  | .vmem => 0
  | .smem => 0
  | _ => 0

abbrev bufTy : (tb : Table) → Fin (tcTables nBuf tb) → BufTy
  | .hbm, ⟨0, _⟩ => ⟨S4x64x64x64x64, .f32⟩
  | .hbm, ⟨1, _⟩ => ⟨S4x1x64x1x64x1x64x64, .f32⟩
  | .hbm, ⟨2, _⟩ => ⟨S_, .f32⟩
  | .hbm, ⟨3, _⟩ => ⟨S4x1x1x1x64, .f32⟩
  | .hbm, ⟨4, _⟩ => ⟨S4x64, .f32⟩
  | .hbm, ⟨5, _⟩ => ⟨S4x2x32x2x32x2x32x64, .f32⟩
  | .hbm, ⟨6, _⟩ => ⟨S_, .f32⟩
  | .hbm, ⟨7, _⟩ => ⟨S4x2x2x2x64, .f32⟩
  | .hbm, ⟨8, _⟩ => ⟨S4x512, .f32⟩
  | .hbm, ⟨9, _⟩ => ⟨S4x4x16x4x16x4x16x64, .f32⟩
  | .hbm, ⟨10, _⟩ => ⟨S_, .f32⟩
  | .hbm, ⟨11, _⟩ => ⟨S4x4x4x4x64, .f32⟩
  | .hbm, ⟨12, _⟩ => ⟨S4x4096, .f32⟩
  | .hbm, ⟨13, _⟩ => ⟨S4x4672, .f32⟩
  | _, _ => ⟨S4x64x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  shapeCasts_S4x64x64x64x64_S4x1x64x1x64x1x64x64 : S4x64x64x64x64.ShapeCasts S4x1x64x1x64x1x64x64
  reducesTo_S4x1x64x1x64x1x64x64_S4x1x1x1x64_d2_4_6 : S4x1x64x1x64x1x64x64.ReducesTo [2, 4, 6] S4x1x1x1x64
  h_S_ : 0 < S_.numel
  shapeCasts_S4x1x1x1x64_S4x64 : S4x1x1x1x64.ShapeCasts S4x64
  shapeCasts_S4x64x64x64x64_S4x2x32x2x32x2x32x64 : S4x64x64x64x64.ShapeCasts S4x2x32x2x32x2x32x64
  reducesTo_S4x2x32x2x32x2x32x64_S4x2x2x2x64_d2_4_6 : S4x2x32x2x32x2x32x64.ReducesTo [2, 4, 6] S4x2x2x2x64
  shapeCasts_S4x2x2x2x64_S4x512 : S4x2x2x2x64.ShapeCasts S4x512
  shapeCasts_S4x64x64x64x64_S4x4x16x4x16x4x16x64 : S4x64x64x64x64.ShapeCasts S4x4x16x4x16x4x16x64
  reducesTo_S4x4x16x4x16x4x16x64_S4x4x4x4x64_d2_4_6 : S4x4x16x4x16x4x16x64.ReducesTo [2, 4, 6] S4x4x4x4x64
  shapeCasts_S4x4x4x4x64_S4x4096 : S4x4x4x4x64.ShapeCasts S4x4096
  concatenates_S4x64_S4x512_S4x4096_S4x4672_d1 : Shape.Concatenates [S4x64, S4x512, S4x4096] S4x4672 1

variable [Facts₀]

class Facts : Prop extends Facts₀ where

variable [Facts]
-- ==== Proof.KBase.lean ====
/-
  The pooling kernel's launch, read around its one region: the contents the region is entered with, @main as the
  region followed by its four host lines (three reshapes and the concatenation), what those lines may touch, each
  window's block at a grid point, and the six branch conditions of the body in closed form over the 32 grid points
  (point t is batch t / 8, slab t % 8: the whole-volume bin restarts at slab 0, the half bins at slabs 0 and 4, the
  quarter bins at every even slab).
-/
import proofs.«177847_j73418170957951_1_alg».proof.Proof.Gen.Kernel.Launch
import proofs.«177847_j73418170957951_1_alg».proof.Proof.Gen.Kernel.Skeleton
import proofs.«177847_j73418170957951_1_alg».proof.Proof.Gen.Kernel.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, StableHlo.nary_writes, Finset.mem_singleton] <;> exact StableHlo.devRef_ne_of_ne (by decide)

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point (it is fetched at every point), for any proof
    data whose input array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose post has every array of the region at what the proof data say, read at the argument array: the input
    window's array ends as it was entered, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's branch conditions over the grid -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
theorem hcond3 : ∀ t : Fin cfg0.N, k0_cond3 (grid0.coords t) = 1#1 ↔ t.val % 4 = 0 :=
  (by decide +kernel : ∀ t : Fin grid0.N, k0_cond3 (grid0.coords t) = 1#1 ↔ t.val % 4 = 0)
theorem hcond4 : ∀ t : Fin cfg0.N, k0_cond4 (grid0.coords t) = 1#1 ↔ ¬ t.val % 4 = 0 :=
  (by decide +kernel : ∀ t : Fin grid0.N, k0_cond4 (grid0.coords t) = 1#1 ↔ ¬ t.val % 4 = 0)
theorem hcond5 : ∀ t : Fin cfg0.N, k0_cond5 (grid0.coords t) = 1#1 ↔ t.val % 2 = 0 :=
  (by decide +kernel : ∀ t : Fin grid0.N, k0_cond5 (grid0.coords t) = 1#1 ↔ t.val % 2 = 0)
theorem hcond6 : ∀ t : Fin cfg0.N, k0_cond6 (grid0.coords t) = 1#1 ↔ ¬ t.val % 2 = 0 :=
  (by decide +kernel : ∀ t : Fin grid0.N, k0_cond6 (grid0.coords t) = 1#1 ↔ ¬ t.val % 2 = 0)

/-- No window is ever idle: at every point the body stores into each output (it either restarts or extends each bin). -/
theorem live0 : ∀ (w : Fin cfg0.W) (t : Fin cfg0.N), cfg0.idle w (grid0.coords t) = false := by decide +kernel

/-! ## The staging memrefs the body is called with -/

abbrev ms0_0 (t : Fin cfg0.N) : Memref sig .tc .vmem S1x8x64x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x2x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x4x64 .f32 := win0_3.stage (cfg0.slots t 3)
abbrev hs0_3 (t : Fin cfg0.N) : (ms0_3 t).IsWhole := hstage0_3 ((cfg0.slots t 3).cast nbuf0_3)

end Cert.Kernel.Hand

end
-- ==== Proof.KBodyA.lean ====
/-
  The pooling body at a grid point of kind A: run symbolically on whole staging buffers, it leaves the input block in
  place and in each output buffer ONE whole-block store — the slab's own bin maxima where the bin restarts, the larger of
  what the buffer held and the slab's bin maxima where it continues.
-/
import proofs.«177847_j73418170957951_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5A : (![0, 0, 0, 0, 0] : Fin 5 → Nat) = fun _ => 0 := funext fun a => by fin_cases a <;> rfl

set_option maxHeartbeats 1000000 in
theorem bodyA (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : k0_cond1 i = 1#1) (h2 : ¬ k0_cond2 i = 1#1) (h3 : k0_cond3 i = 1#1) (h4 : ¬ k0_cond4 i = 1#1) (h5 : k0_cond5 i = 1#1) (h6 : ¬ k0_cond6 i = 1#1)
    (x0 : Vec F S1x8x64x64x64 .f32)  (E : Set ℕ) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k0_pay8 x0)
            ∗ owns (c : Thread nD τ) arg4 fullShare (k0_pay10 x0) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%d1, %f3, -, H3⟩, ⟨%d2, %f4, -, H4⟩, ⟨%d3, %f5, -, H5⟩, Hk⟩
  obtain rfl := harg2.eq_unread hf2
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5A inb_S1x1x1x1x64_S1x1x1x1x64_0_0_0_0_0 y⟩), View.canon_unit_zero hz5A]
    try sl_unfold_words
    simp only [View.readAt_eq_ld, harg2.read_unread, View.ld_unit_zero (S := S1x8x64x64x64) hz5A, View.ld_unit_zero (S := S1x1x1x1x64) hz5A]
  isplitl [H4]
  · iexists _; isplitr
    swap; · iexact H4
    ipureintro
    rw [View.read_writes_eq_canon _ _ _ (fun y => ⟨_, List.mem_singleton_self _, View.mem_set_unit_zero hz5A inb_S1x1x2x2x64_S1x1x2x2x64_0_0_0_0_0 y⟩), View.canon_unit_zero hz5A]
    try sl_unfold_words
    simp only [View.readAt_eq_ld, harg2.read_unread, View.ld_unit_zero (S := S1x8x64x64x64) hz5A, View.ld_unit_zero (S := S1x1x2x2x64) hz5A]
  · iexists _; isplitr
    swap; · iexact H5
    ipureintro
    rw [View.read_writes_eq_canon _ _ _ (fun y => ⟨_, List.mem_singleton_self _, View.mem_set_unit_zero hz5A inb_S1x1x4x4x64_S1x1x4x4x64_0_0_0_0_0 y⟩), View.canon_unit_zero hz5A]
    try sl_unfold_words
    simp only [View.readAt_eq_ld, harg2.read_unread, View.ld_unit_zero (S := S1x8x64x64x64) hz5A, View.ld_unit_zero (S := S1x1x4x4x64) hz5A]

end Cert.Kernel.Hand

end
-- ==== Proof.KBodyB.lean ====
/-
  The pooling body at a grid point of kind B: run symbolically on whole staging buffers, it leaves the input block in
  place and in each output buffer ONE whole-block store — the slab's own bin maxima where the bin restarts, the larger of
  what the buffer held and the slab's bin maxima where it continues.
-/
import proofs.«177847_j73418170957951_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5B : (![0, 0, 0, 0, 0] : Fin 5 → Nat) = fun _ => 0 := funext fun a => by fin_cases a <;> rfl

set_option maxHeartbeats 1000000 in
theorem bodyB (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1)
    (x0 : Vec F S1x8x64x64x64 .f32) (y1 : Vec F S1x1x1x1x64 .f32) (y2 : Vec F S1x1x2x2x64 .f32) (y3 : Vec F S1x1x4x4x64 .f32) (E : Set ℕ) (K : PUnit → sProp 𝕄) :
    iprop(owns (c : Thread nD τ) arg2 fullShare x0 ∗ owns (c : Thread nD τ) arg3 fullShare y1
        ∗ owns (c : Thread nD τ) arg4 fullShare y2 ∗ owns (c : Thread nD τ) arg5 fullShare y3
        ∗ (iprop(owns (c : Thread nD τ) arg2 fullShare x0 ∗ owns (c : Thread nD τ) arg3 fullShare (k0_pay9 x0 y1)
            ∗ owns (c : Thread nD τ) arg4 fullShare (k0_pay1 (k0_pay6 x0) y2) ∗ owns (c : Thread nD τ) arg5 fullShare (k0_pay3 (k0_pay7 x0) y3)) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2
  obtain rfl := harg3.eq_unread hf3
  obtain rfl := harg4.eq_unread hf4
  obtain rfl := harg5.eq_unread hf5
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5B inb_S1x1x1x1x64_S1x1x1x1x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x1x1x64) hz5B]
  isplitl [H4]
  · iexists _; isplitr
    swap; · iexact H4
    ipureintro
    rw [View.read_writes_eq_canon _ _ _ (fun y => ⟨_, List.mem_singleton_self _, View.mem_set_unit_zero hz5B inb_S1x1x2x2x64_S1x1x2x2x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x2x2x64) hz5B]
  · iexists _; isplitr
    swap; · iexact H5
    ipureintro
    rw [View.read_writes_eq_canon _ _ _ (fun y => ⟨_, List.mem_singleton_self _, View.mem_set_unit_zero hz5B inb_S1x1x4x4x64_S1x1x4x4x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x4x4x64) hz5B]

end Cert.Kernel.Hand

end
-- ==== Proof.KBodyC.lean ====
/-
  The pooling body at a grid point of kind C: run symbolically on whole staging buffers, it leaves the input block in
  place and in each output buffer ONE whole-block store — the slab's own bin maxima where the bin restarts, the larger of
  what the buffer held and the slab's bin maxima where it continues.
-/
import proofs.«177847_j73418170957951_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5C : (![0, 0, 0, 0, 0] : Fin 5 → Nat) = fun _ => 0 := funext fun a => by fin_cases a <;> rfl

set_option maxHeartbeats 1000000 in
theorem bodyC (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : ¬ k0_cond3 i = 1#1) (h4 : k0_cond4 i = 1#1) (h5 : k0_cond5 i = 1#1) (h6 : ¬ k0_cond6 i = 1#1)
    (x0 : Vec F S1x8x64x64x64 .f32) (y1 : Vec F S1x1x1x1x64 .f32) (y2 : Vec F S1x1x2x2x64 .f32) (E : Set ℕ) (K : PUnit → sProp 𝕄) :
    iprop(owns (c : Thread nD τ) arg2 fullShare x0 ∗ owns (c : Thread nD τ) arg3 fullShare y1
        ∗ owns (c : Thread nD τ) arg4 fullShare y2 ∗ (∃ d, owns (c : Thread nD τ) arg5 fullShare d)
        ∗ (iprop(owns (c : Thread nD τ) arg2 fullShare x0 ∗ owns (c : Thread nD τ) arg3 fullShare (k0_pay9 x0 y1)
            ∗ owns (c : Thread nD τ) arg4 fullShare (k0_pay1 (k0_pay6 x0) y2) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%f4, %hf4, H4⟩, ⟨%d3, %f5, -, H5⟩, Hk⟩
  obtain rfl := harg2.eq_unread hf2
  obtain rfl := harg3.eq_unread hf3
  obtain rfl := harg4.eq_unread hf4
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5C inb_S1x1x1x1x64_S1x1x1x1x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x1x1x64) hz5C]
  isplitl [H4]
  · iexists _; isplitr
    swap; · iexact H4
    ipureintro
    rw [View.read_writes_eq_canon _ _ _ (fun y => ⟨_, List.mem_singleton_self _, View.mem_set_unit_zero hz5C inb_S1x1x2x2x64_S1x1x2x2x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x2x2x64) hz5C]
  · iexists _; isplitr
    swap; · iexact H5
    ipureintro
    rw [View.read_writes_eq_canon _ _ _ (fun y => ⟨_, List.mem_singleton_self _, View.mem_set_unit_zero hz5C inb_S1x1x4x4x64_S1x1x4x4x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x4x4x64) hz5C]

end Cert.Kernel.Hand

end
-- ==== Proof.KBodyD.lean ====
/-
  The pooling body at a grid point of kind D: run symbolically on whole staging buffers, it leaves the input block in
  place and in each output buffer ONE whole-block store — the slab's own bin maxima where the bin restarts, the larger of
  what the buffer held and the slab's bin maxima where it continues.
-/
import proofs.«177847_j73418170957951_1_alg».proof.Proof.KBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5D : (![0, 0, 0, 0, 0] : Fin 5 → Nat) = fun _ => 0 := funext fun a => by fin_cases a <;> rfl

set_option maxHeartbeats 1000000 in
theorem bodyD (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : k0_cond3 i = 1#1) (h4 : ¬ k0_cond4 i = 1#1) (h5 : k0_cond5 i = 1#1) (h6 : ¬ k0_cond6 i = 1#1)
    (x0 : Vec F S1x8x64x64x64 .f32) (y1 : Vec F S1x1x1x1x64 .f32) (E : Set ℕ) (K : PUnit → sProp 𝕄) :
    iprop(owns (c : Thread nD τ) arg2 fullShare x0 ∗ owns (c : Thread nD τ) arg3 fullShare y1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k0_pay9 x0 y1)
            ∗ owns (c : Thread nD τ) arg4 fullShare (k0_pay10 x0) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%d2, %f4, -, H4⟩, ⟨%d3, %f5, -, H5⟩, Hk⟩
  obtain rfl := harg2.eq_unread hf2
  obtain rfl := harg3.eq_unread hf3
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5D inb_S1x1x1x1x64_S1x1x1x1x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x1x1x64) hz5D]
  isplitl [H4]
  · iexists _; isplitr
    swap; · iexact H4
    ipureintro
    rw [View.read_writes_eq_canon _ _ _ (fun y => ⟨_, List.mem_singleton_self _, View.mem_set_unit_zero hz5D inb_S1x1x2x2x64_S1x1x2x2x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x2x2x64) hz5D]
  · iexists _; isplitr
    swap; · iexact H5
    ipureintro
    rw [View.read_writes_eq_canon _ _ _ (fun y => ⟨_, List.mem_singleton_self _, View.mem_set_unit_zero hz5D inb_S1x1x4x4x64_S1x1x4x4x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x4x4x64) hz5D]

end Cert.Kernel.Hand

end
-- ==== Proof.KFrame.lean ====
/-
  The pooling kernel's run.  What each output's staging buffer holds after each grid point is a running maximum: at a
  point where the bin restarts, the slab's own bin maxima; elsewhere the larger of what the point before left and the
  slab's bin maxima (the buffer is not written back between: the whole-volume bin is written back after slab 7, the half
  bins after slabs 3 and 7, the quarter bins after every odd slab).  With these as the proof data the body meets its
  obligation at every point — by the kind of point — and the launch theorem gives the run of @main: the region, then the
  four host lines.
-/
import proofs.«177847_j73418170957951_1_alg».proof.Proof.KBodyA
import proofs.«177847_j73418170957951_1_alg».proof.Proof.KBodyB
import proofs.«177847_j73418170957951_1_alg».proof.Proof.KBodyC
import proofs.«177847_j73418170957951_1_alg».proof.Proof.KBodyD

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running maxima, point by point -/

/-- The whole-volume bin after point `n`: restarted at slab 0 of each batch. -/
def o1At (c : Dev nD) : (n : ℕ) → n < cfg0.N → Vec F S1x1x1x1x64 .f32
  | 0, hn => k0_pay8 (iblk m c 0 ⟨0, hn⟩)
  | n + 1, hn =>
    if (n + 1) % 8 = 0 then k0_pay8 (iblk m c 0 ⟨n + 1, hn⟩)
    else k0_pay9 (iblk m c 0 ⟨n + 1, hn⟩) (o1At c n (Nat.lt_of_succ_lt hn))

/-- The half bins after point `n`: restarted at slabs 0 and 4. -/
def o2At (c : Dev nD) : (n : ℕ) → n < cfg0.N → Vec F S1x1x2x2x64 .f32
  | 0, hn => k0_pay10 (iblk m c 0 ⟨0, hn⟩)
  | n + 1, hn =>
    if (n + 1) % 4 = 0 then k0_pay10 (iblk m c 0 ⟨n + 1, hn⟩)
    else k0_pay1 (k0_pay6 (iblk m c 0 ⟨n + 1, hn⟩)) (o2At c n (Nat.lt_of_succ_lt hn))

/-- The quarter bins after point `n`: restarted at every even slab. -/
def o3At (c : Dev nD) : (n : ℕ) → n < cfg0.N → Vec F S1x1x4x4x64 .f32
  | 0, hn => k0_pay2 (k0_pay7 (iblk m c 0 ⟨0, hn⟩))
  | n + 1, hn =>
    if (n + 1) % 2 = 0 then k0_pay2 (k0_pay7 (iblk m c 0 ⟨n + 1, hn⟩))
    else k0_pay3 (k0_pay7 (iblk m c 0 ⟨n + 1, hn⟩)) (o3At c n (Nat.lt_of_succ_lt hn))

theorem o1At_reset (c : Dev nD) (t : Fin cfg0.N) (h : t.val % 8 = 0) :
    o1At m c t.val t.isLt = k0_pay8 (iblk m c 0 t) := by
  obtain ⟨n, hn⟩ := t
  cases n with
  | zero => exact rfl
  | succ n => exact (if_pos h).trans rfl

theorem o1At_acc (c : Dev nD) (t : Fin cfg0.N) (h : ¬ t.val % 8 = 0) :
    o1At m c t.val t.isLt = k0_pay9 (iblk m c 0 t) (o1At m c (t.val - 1) (Nat.lt_of_le_of_lt (Nat.sub_le _ _) t.isLt)) := by
  obtain ⟨n, hn⟩ := t
  cases n with
  | zero => exact absurd (Nat.zero_mod _) h
  | succ n => exact (if_neg h).trans rfl

theorem o2At_reset (c : Dev nD) (t : Fin cfg0.N) (h : t.val % 4 = 0) :
    o2At m c t.val t.isLt = k0_pay10 (iblk m c 0 t) := by
  obtain ⟨n, hn⟩ := t
  cases n with
  | zero => exact rfl
  | succ n => exact (if_pos h).trans rfl

theorem o2At_acc (c : Dev nD) (t : Fin cfg0.N) (h : ¬ t.val % 4 = 0) :
    o2At m c t.val t.isLt = k0_pay1 (k0_pay6 (iblk m c 0 t)) (o2At m c (t.val - 1) (Nat.lt_of_le_of_lt (Nat.sub_le _ _) t.isLt)) := by
  obtain ⟨n, hn⟩ := t
  cases n with
  | zero => exact absurd (Nat.zero_mod _) h
  | succ n => exact (if_neg h).trans rfl

theorem o3At_reset (c : Dev nD) (t : Fin cfg0.N) (h : t.val % 2 = 0) :
    o3At m c t.val t.isLt = k0_pay2 (k0_pay7 (iblk m c 0 t)) := by
  obtain ⟨n, hn⟩ := t
  cases n with
  | zero => exact rfl
  | succ n => exact (if_pos h).trans rfl

theorem o3At_acc (c : Dev nD) (t : Fin cfg0.N) (h : ¬ t.val % 2 = 0) :
    o3At m c t.val t.isLt = k0_pay3 (k0_pay7 (iblk m c 0 t)) (o3At m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The arrays as the region finds them; after the body at point `t` the input's buffer at its block and each output's
    at its running maximum; the scoped rest and the generator register as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => o1At m c t.val t.isLt
    | ⟨2, _⟩ => o2At m c t.val t.isLt
    | ⟨3, _⟩ => o3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = o1At m c t.val t.isLt := by dsimp only [dats]
theorem after0_2 (c : Dev nD) (t : Fin cfg0.N) : (dats m 0 c).after 2 t = o2At m c t.val t.isLt := by dsimp only [dats]
theorem after0_3 (c : Dev nD) (t : Fin cfg0.N) : (dats m 0 c).after 3 t = o3At m c t.val t.isLt := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Every window is live at every coordinate: the body always stores into each output. -/
theorem live_all : ∀ (w : Fin cfg0.W) (i : grid0.Coords), cfg0.idle w i = false := by decide +kernel

/-- At a point where the whole-volume bin continues, its buffer holds what the point before left. -/
theorem before0_1_acc (c : Dev nD) (t : Fin cfg0.N) (h : ¬ t.val % 8 = 0) (d) :
    (dats m 0 c).before 1 t d = o1At m c (t.val - 1) (Nat.lt_of_le_of_lt (Nat.sub_le _ _) t.isLt) := by
  have hN : t.val < 32 := lt_of_lt_of_eq t.isLt (show cfg0.N = 32 from N_0)
  rw [Dat.before_out_kept _ 1 rfl t (by omega) (Bool.eq_false_iff.mpr fun hf => by have := (flush0_1 _).mp hf; dsimp only at this; omega)
    (live_all 1) (fun _ _ => rfl)]
  dsimp only [dats]

theorem before0_2_acc (c : Dev nD) (t : Fin cfg0.N) (h : ¬ t.val % 4 = 0) (d) :
    (dats m 0 c).before 2 t d = o2At m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun hf => by have := (flush0_2 _).mp hf; dsimp only at this; omega)
    (live_all 2) (fun _ _ => rfl)]
  dsimp only [dats]

theorem before0_3_acc (c : Dev nD) (t : Fin cfg0.N) (h : ¬ t.val % 2 = 0) (d) :
    (dats m 0 c).before 3 t d = o3At m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun hf => by have := (flush0_3 _).mp hf; dsimp only at this; omega)
    (live_all 3) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0_0 t) fullShare (iblk m c 0 t) := by
  unfold Dat.leavesExact; rw [live0 0 t, after0_0]
theorem leaves1 (c : Dev nD) (t : Fin cfg0.N) :
    (dats m 0 c).leavesExact 1 t = owns (c : Thread nD τ) (ms0_1 t) fullShare (o1At m c t.val t.isLt) := by
  unfold Dat.leavesExact; rw [live0 1 t, after0_1]
theorem leaves2 (c : Dev nD) (t : Fin cfg0.N) :
    (dats m 0 c).leavesExact 2 t = owns (c : Thread nD τ) (ms0_2 t) fullShare (o2At m c t.val t.isLt) := by
  unfold Dat.leavesExact; rw [live0 2 t, after0_2]
theorem leaves3 (c : Dev nD) (t : Fin cfg0.N) :
    (dats m 0 c).leavesExact 3 t = owns (c : Thread nD τ) (ms0_3 t) fullShare (o3At m c t.val t.isLt) := by
  unfold Dat.leavesExact; rw [live0 3 t, after0_3]

set_option maxHeartbeats 1600000 in
/-- The body at any point: the input's buffer holds its block; the point's slab number says which bins restart; a bin
    that continues finds in its buffer what the point before left; so the matching run of the body applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    leaves0, leaves1, leaves2, leaves3]
  have hN : t.val < 32 := lt_of_lt_of_eq t.isLt (show cfg0.N = 32 from N_0)
  by_cases h8 : t.val % 8 = 0
  · -- slab 0: every bin restarts
    have h4 : t.val % 4 = 0 := by omega
    have h2 : t.val % 2 = 0 := by omega
    rw [o1At_reset m c t h8, o2At_reset m c t h4, o3At_reset m c t h2]
    iintro ⟨HΦ, Ho, ⟨%d0, H0⟩, ⟨%d1, H1⟩, ⟨%d2, H2⟩, ⟨%d3, H3⟩⟩
    iapply (bodyA c (grid0.coords t) _ _ _ _ _ _ _ _ ((hcond1 t).mpr h8) (fun h => (hcond2 t).mp h h8) ((hcond3 t).mpr h4)
      (fun h => (hcond4 t).mp h h4) ((hcond5 t).mpr h2) (fun h => (hcond6 t).mp h h2) (iblk m c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h4 : t.val % 4 = 0
    · -- slab 4: the half and quarter bins restart, the whole-volume bin continues
      have h2 : t.val % 2 = 0 := by omega
      rw [o1At_acc m c t h8, o2At_reset m c t h4, o3At_reset m c t h2]
      simp only [before0_1_acc m c t h8]
      iintro ⟨HΦ, Ho, ⟨%d0, H0⟩, ⟨%d1, H1⟩, ⟨%d2, H2⟩, ⟨%d3, H3⟩⟩
      iapply (bodyD c (grid0.coords t) _ _ _ _ _ _ _ _ (fun h => h8 ((hcond1 t).mp h)) ((hcond2 t).mpr h8) ((hcond3 t).mpr h4)
        (fun h => (hcond4 t).mp h h4) ((hcond5 t).mpr h2) (fun h => (hcond6 t).mp h h2) (iblk m c 0 t) _ Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · by_cases h2 : t.val % 2 = 0
      · -- slabs 2 and 6: only the quarter bins restart
        rw [o1At_acc m c t h8, o2At_acc m c t h4, o3At_reset m c t h2]
        simp only [before0_1_acc m c t h8, before0_2_acc m c t h4]
        iintro ⟨HΦ, Ho, ⟨%d0, H0⟩, ⟨%d1, H1⟩, ⟨%d2, H2⟩, ⟨%d3, H3⟩⟩
        iapply (bodyC c (grid0.coords t) _ _ _ _ _ _ _ _ (fun h => h8 ((hcond1 t).mp h)) ((hcond2 t).mpr h8) (fun h => h4 ((hcond3 t).mp h))
          ((hcond4 t).mpr h4) ((hcond5 t).mpr h2) (fun h => (hcond6 t).mp h h2) (iblk m c 0 t) _ _ Set.univ _)
        isplitl [H0]; · iexact H0
        isplitl [H1]; · iexact H1
        isplitl [H2]; · iexact H2
        isplitl [H3]; · iexists _; iexact H3
        iintro ⟨H0, H1, H2, H3⟩
        isplitl [HΦ]; · iexact HΦ
        isplitl [Ho]; · iexact Ho
        isplitl [H0]; · iexact H0
        isplitl [H1]; · iexact H1
        isplitl [H2]; · iexact H2
        iexact H3
      · -- odd slabs: every bin continues
        rw [o1At_acc m c t h8, o2At_acc m c t h4, o3At_acc m c t h2]
        simp only [before0_1_acc m c t h8, before0_2_acc m c t h4, before0_3_acc m c t h2]
        iintro ⟨HΦ, Ho, ⟨%d0, H0⟩, ⟨%d1, H1⟩, ⟨%d2, H2⟩, ⟨%d3, H3⟩⟩
        iapply (bodyB c (grid0.coords t) _ _ _ _ _ _ _ _ (fun h => h8 ((hcond1 t).mp h)) ((hcond2 t).mpr h8) (fun h => h4 ((hcond3 t).mp h))
          ((hcond4 t).mpr h4) (fun h => h2 ((hcond5 t).mp h)) ((hcond6 t).mpr h2) (iblk m c 0 t) _ _ _ Set.univ _)
        isplitl [H0]; · iexact H0
        isplitl [H1]; · iexact H1
        isplitl [H2]; · iexact H2
        isplitl [H3]; · iexact H3
        iintro ⟨H0, H1, H2, H3⟩
        isplitl [HΦ]; · iexact HΦ
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data compute, every
    other unscoped buffer as the four host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.Kernel.Hand

end
-- ==== Proof.KIBase.lean ====
/-
  The pooling kernel's launch, read around its one region: the contents the region is entered with, @main as the
  region followed by its four host lines (three reshapes and the concatenation), what those lines may touch, each
  window's block at a grid point, and the six branch conditions of the body in closed form over the 32 grid points
  (point t is batch t / 8, slab t % 8: the whole-volume bin restarts at slab 0, the half bins at slabs 0 and 4, the
  quarter bins at every even slab).
-/
import proofs.«177847_j73418170957951_1_alg».proof.Proof.Gen.KernelIdeal.Launch
import proofs.«177847_j73418170957951_1_alg».proof.Proof.Gen.KernelIdeal.Skeleton
import proofs.«177847_j73418170957951_1_alg».proof.Proof.Gen.KernelIdeal.Points
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffers' contents when the region is entered: the launch contents (no host line precedes the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor

/-- @main is the region continued by the four host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The lines after the region touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And each writes only its own result buffer, which is none of the region's four arrays. -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl
    all_goals intro w; fin_cases w <;> simp only [StableHlo.reshape_writes, StableHlo.nary_writes, Finset.mem_singleton] <;> exact StableHlo.devRef_ne_of_ne (by decide)

theorem V_main_arg0 (c : Dev nD) : V m c main_arg0 = m ((c : Thread nD τ).loc main_arg0) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input's current staging buffer holds its block at every point (it is fetched at every point), for any proof
    data whose input array is the entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run whose post has every array of the region at what the proof data say, read at the argument array: the input
    window's array ends as it was entered, which is the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).1 0).trans (((dats 0 c).arrAt_in 0 rfl _).trans ((hA c 0).trans (V_main_arg0 m c)))) h

/-! ## The body's branch conditions over the grid -/

theorem hcond1 : ∀ t : Fin cfg0.N, k0_cond1 (grid0.coords t) = 1#1 ↔ t.val % 8 = 0 :=
  (by decide +kernel : ∀ t : Fin grid0.N, k0_cond1 (grid0.coords t) = 1#1 ↔ t.val % 8 = 0)
theorem hcond2 : ∀ t : Fin cfg0.N, k0_cond2 (grid0.coords t) = 1#1 ↔ ¬ t.val % 8 = 0 :=
  (by decide +kernel : ∀ t : Fin grid0.N, k0_cond2 (grid0.coords t) = 1#1 ↔ ¬ t.val % 8 = 0)
theorem hcond3 : ∀ t : Fin cfg0.N, k0_cond3 (grid0.coords t) = 1#1 ↔ t.val % 4 = 0 :=
  (by decide +kernel : ∀ t : Fin grid0.N, k0_cond3 (grid0.coords t) = 1#1 ↔ t.val % 4 = 0)
theorem hcond4 : ∀ t : Fin cfg0.N, k0_cond4 (grid0.coords t) = 1#1 ↔ ¬ t.val % 4 = 0 :=
  (by decide +kernel : ∀ t : Fin grid0.N, k0_cond4 (grid0.coords t) = 1#1 ↔ ¬ t.val % 4 = 0)
theorem hcond5 : ∀ t : Fin cfg0.N, k0_cond5 (grid0.coords t) = 1#1 ↔ t.val % 2 = 0 :=
  (by decide +kernel : ∀ t : Fin grid0.N, k0_cond5 (grid0.coords t) = 1#1 ↔ t.val % 2 = 0)
theorem hcond6 : ∀ t : Fin cfg0.N, k0_cond6 (grid0.coords t) = 1#1 ↔ ¬ t.val % 2 = 0 :=
  (by decide +kernel : ∀ t : Fin grid0.N, k0_cond6 (grid0.coords t) = 1#1 ↔ ¬ t.val % 2 = 0)

/-- No window is ever idle: at every point the body stores into each output (it either restarts or extends each bin). -/
theorem live0 : ∀ (w : Fin cfg0.W) (t : Fin cfg0.N), cfg0.idle w (grid0.coords t) = false := by decide +kernel

/-! ## The staging memrefs the body is called with -/

abbrev ms0_0 (t : Fin cfg0.N) : Memref sig .tc .vmem S1x8x64x64x64 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x1x1x64 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2x2x64 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x4x4x64 .f32 := win0_3.stage (cfg0.slots t 3)
abbrev hs0_3 (t : Fin cfg0.N) : (ms0_3 t).IsWhole := hstage0_3 ((cfg0.slots t 3).cast nbuf0_3)

end Cert.KernelIdeal.Hand

end
-- ==== Proof.KIBodyA.lean ====
/-
  The pooling body at a grid point of kind A: run symbolically on whole staging buffers, it leaves the input block in
  place and in each output buffer ONE whole-block store — the slab's own bin maxima where the bin restarts, the larger of
  what the buffer held and the slab's bin maxima where it continues.
-/
import proofs.«177847_j73418170957951_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5A : (![0, 0, 0, 0, 0] : Fin 5 → Nat) = fun _ => 0 := funext fun a => by fin_cases a <;> rfl

set_option maxHeartbeats 1000000 in
theorem bodyA (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : k0_cond1 i = 1#1) (h2 : ¬ k0_cond2 i = 1#1) (h3 : k0_cond3 i = 1#1) (h4 : ¬ k0_cond4 i = 1#1) (h5 : k0_cond5 i = 1#1) (h6 : ¬ k0_cond6 i = 1#1)
    (x0 : Vec F S1x8x64x64x64 .f32)  (E : Set ℕ) (K : PUnit → sProp 𝕄) :
    iprop(owns (c : Thread nD τ) arg2 fullShare x0 ∗ (∃ d, owns (c : Thread nD τ) arg3 fullShare d)
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k0_pay8 x0)
            ∗ owns (c : Thread nD τ) arg4 fullShare (k0_pay10 x0) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%d1, %f3, -, H3⟩, ⟨%d2, %f4, -, H4⟩, ⟨%d3, %f5, -, H5⟩, Hk⟩
  obtain rfl := harg2.eq_unread hf2
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5A inb_S1x1x1x1x64_S1x1x1x1x64_0_0_0_0_0 y⟩), View.canon_unit_zero hz5A]
    try sl_unfold_words
    simp only [View.readAt_eq_ld, harg2.read_unread, View.ld_unit_zero (S := S1x8x64x64x64) hz5A, View.ld_unit_zero (S := S1x1x1x1x64) hz5A]
  isplitl [H4]
  · iexists _; isplitr
    swap; · iexact H4
    ipureintro
    rw [View.read_writes_eq_canon _ _ _ (fun y => ⟨_, List.mem_singleton_self _, View.mem_set_unit_zero hz5A inb_S1x1x2x2x64_S1x1x2x2x64_0_0_0_0_0 y⟩), View.canon_unit_zero hz5A]
    try sl_unfold_words
    simp only [View.readAt_eq_ld, harg2.read_unread, View.ld_unit_zero (S := S1x8x64x64x64) hz5A, View.ld_unit_zero (S := S1x1x2x2x64) hz5A]
  · iexists _; isplitr
    swap; · iexact H5
    ipureintro
    rw [View.read_writes_eq_canon _ _ _ (fun y => ⟨_, List.mem_singleton_self _, View.mem_set_unit_zero hz5A inb_S1x1x4x4x64_S1x1x4x4x64_0_0_0_0_0 y⟩), View.canon_unit_zero hz5A]
    try sl_unfold_words
    simp only [View.readAt_eq_ld, harg2.read_unread, View.ld_unit_zero (S := S1x8x64x64x64) hz5A, View.ld_unit_zero (S := S1x1x4x4x64) hz5A]

end Cert.KernelIdeal.Hand

end
-- ==== Proof.KIBodyB.lean ====
/-
  The pooling body at a grid point of kind B: run symbolically on whole staging buffers, it leaves the input block in
  place and in each output buffer ONE whole-block store — the slab's own bin maxima where the bin restarts, the larger of
  what the buffer held and the slab's bin maxima where it continues.
-/
import proofs.«177847_j73418170957951_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5B : (![0, 0, 0, 0, 0] : Fin 5 → Nat) = fun _ => 0 := funext fun a => by fin_cases a <;> rfl

set_option maxHeartbeats 1000000 in
theorem bodyB (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : ¬ k0_cond3 i = 1#1) (h4 : k0_cond4 i = 1#1) (h5 : ¬ k0_cond5 i = 1#1) (h6 : k0_cond6 i = 1#1)
    (x0 : Vec F S1x8x64x64x64 .f32) (y1 : Vec F S1x1x1x1x64 .f32) (y2 : Vec F S1x1x2x2x64 .f32) (y3 : Vec F S1x1x4x4x64 .f32) (E : Set ℕ) (K : PUnit → sProp 𝕄) :
    iprop(owns (c : Thread nD τ) arg2 fullShare x0 ∗ owns (c : Thread nD τ) arg3 fullShare y1
        ∗ owns (c : Thread nD τ) arg4 fullShare y2 ∗ owns (c : Thread nD τ) arg5 fullShare y3
        ∗ (iprop(owns (c : Thread nD τ) arg2 fullShare x0 ∗ owns (c : Thread nD τ) arg3 fullShare (k0_pay9 x0 y1)
            ∗ owns (c : Thread nD τ) arg4 fullShare (k0_pay1 (k0_pay6 x0) y2) ∗ owns (c : Thread nD τ) arg5 fullShare (k0_pay3 (k0_pay7 x0) y3)) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%f4, %hf4, H4⟩, ⟨%f5, %hf5, H5⟩, Hk⟩
  obtain rfl := harg2.eq_unread hf2
  obtain rfl := harg3.eq_unread hf3
  obtain rfl := harg4.eq_unread hf4
  obtain rfl := harg5.eq_unread hf5
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5B inb_S1x1x1x1x64_S1x1x1x1x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x1x1x64) hz5B]
  isplitl [H4]
  · iexists _; isplitr
    swap; · iexact H4
    ipureintro
    rw [View.read_writes_eq_canon _ _ _ (fun y => ⟨_, List.mem_singleton_self _, View.mem_set_unit_zero hz5B inb_S1x1x2x2x64_S1x1x2x2x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x2x2x64) hz5B]
  · iexists _; isplitr
    swap; · iexact H5
    ipureintro
    rw [View.read_writes_eq_canon _ _ _ (fun y => ⟨_, List.mem_singleton_self _, View.mem_set_unit_zero hz5B inb_S1x1x4x4x64_S1x1x4x4x64_0_0_0_0_0 y⟩), View.canon_unit_zero hz5B]
    try sl_unfold_words
    simp only [View.readAt_eq_ld, harg2.read_unread, harg3.read_unread, harg4.read_unread, harg5.read_unread, View.ld_unit_zero (S := S1x8x64x64x64) hz5B, View.ld_unit_zero (S := S1x1x4x4x64) hz5B]

end Cert.KernelIdeal.Hand

end
-- ==== Proof.KIBodyC.lean ====
/-
  The pooling body at a grid point of kind C: run symbolically on whole staging buffers, it leaves the input block in
  place and in each output buffer ONE whole-block store — the slab's own bin maxima where the bin restarts, the larger of
  what the buffer held and the slab's bin maxima where it continues.
-/
import proofs.«177847_j73418170957951_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5C : (![0, 0, 0, 0, 0] : Fin 5 → Nat) = fun _ => 0 := funext fun a => by fin_cases a <;> rfl

set_option maxHeartbeats 1000000 in
theorem bodyC (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : ¬ k0_cond3 i = 1#1) (h4 : k0_cond4 i = 1#1) (h5 : k0_cond5 i = 1#1) (h6 : ¬ k0_cond6 i = 1#1)
    (x0 : Vec F S1x8x64x64x64 .f32) (y1 : Vec F S1x1x1x1x64 .f32) (y2 : Vec F S1x1x2x2x64 .f32) (E : Set ℕ) (K : PUnit → sProp 𝕄) :
    iprop(owns (c : Thread nD τ) arg2 fullShare x0 ∗ owns (c : Thread nD τ) arg3 fullShare y1
        ∗ owns (c : Thread nD τ) arg4 fullShare y2 ∗ (∃ d, owns (c : Thread nD τ) arg5 fullShare d)
        ∗ (iprop(owns (c : Thread nD τ) arg2 fullShare x0 ∗ owns (c : Thread nD τ) arg3 fullShare (k0_pay9 x0 y1)
            ∗ owns (c : Thread nD τ) arg4 fullShare (k0_pay1 (k0_pay6 x0) y2) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%f4, %hf4, H4⟩, ⟨%d3, %f5, -, H5⟩, Hk⟩
  obtain rfl := harg2.eq_unread hf2
  obtain rfl := harg3.eq_unread hf3
  obtain rfl := harg4.eq_unread hf4
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5C inb_S1x1x1x1x64_S1x1x1x1x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x1x1x64) hz5C]
  isplitl [H4]
  · iexists _; isplitr
    swap; · iexact H4
    ipureintro
    rw [View.read_writes_eq_canon _ _ _ (fun y => ⟨_, List.mem_singleton_self _, View.mem_set_unit_zero hz5C inb_S1x1x2x2x64_S1x1x2x2x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x2x2x64) hz5C]
  · iexists _; isplitr
    swap; · iexact H5
    ipureintro
    rw [View.read_writes_eq_canon _ _ _ (fun y => ⟨_, List.mem_singleton_self _, View.mem_set_unit_zero hz5C inb_S1x1x4x4x64_S1x1x4x4x64_0_0_0_0_0 y⟩), View.canon_unit_zero hz5C]
    try sl_unfold_words
    simp only [View.readAt_eq_ld, harg2.read_unread, harg3.read_unread, harg4.read_unread, View.ld_unit_zero (S := S1x8x64x64x64) hz5C, View.ld_unit_zero (S := S1x1x4x4x64) hz5C]

end Cert.KernelIdeal.Hand

end
-- ==== Proof.KIBodyD.lean ====
/-
  The pooling body at a grid point of kind D: run symbolically on whole staging buffers, it leaves the input block in
  place and in each output buffer ONE whole-block store — the slab's own bin maxima where the bin restarts, the larger of
  what the buffer held and the slab's bin maxima where it continues.
-/
import proofs.«177847_j73418170957951_1_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz5D : (![0, 0, 0, 0, 0] : Fin 5 → Nat) = fun _ => 0 := funext fun a => by fin_cases a <;> rfl

set_option maxHeartbeats 1000000 in
theorem bodyD (c : Dev nD) (i : grid0.Coords)
    (arg2 : Memref sig .tc .vmem S1x8x64x64x64 .f32) (harg2 : arg2.IsWhole)
    (arg3 : Memref sig .tc .vmem S1x1x1x1x64 .f32) (harg3 : arg3.IsWhole)
    (arg4 : Memref sig .tc .vmem S1x1x2x2x64 .f32) (harg4 : arg4.IsWhole)
    (arg5 : Memref sig .tc .vmem S1x1x4x4x64 .f32) (harg5 : arg5.IsWhole)
    (h1 : ¬ k0_cond1 i = 1#1) (h2 : k0_cond2 i = 1#1) (h3 : k0_cond3 i = 1#1) (h4 : ¬ k0_cond4 i = 1#1) (h5 : k0_cond5 i = 1#1) (h6 : ¬ k0_cond6 i = 1#1)
    (x0 : Vec F S1x8x64x64x64 .f32) (y1 : Vec F S1x1x1x1x64 .f32) (E : Set ℕ) (K : PUnit → sProp 𝕄) :
    iprop(owns (c : Thread nD τ) arg2 fullShare x0 ∗ owns (c : Thread nD τ) arg3 fullShare y1
        ∗ (∃ d, owns (c : Thread nD τ) arg4 fullShare d) ∗ (∃ d, owns (c : Thread nD τ) arg5 fullShare d)
        ∗ (iprop(owns (c : Thread nD τ) arg2 fullShare x0 ∗ owns (c : Thread nD τ) arg3 fullShare (k0_pay9 x0 y1)
            ∗ owns (c : Thread nD τ) arg4 fullShare (k0_pay10 x0) ∗ owns (c : Thread nD τ) arg5 fullShare (k0_pay2 (k0_pay7 x0))) -∗ K ⟨⟩))
      ⊢ wp frame (wpE (defs₀ (F := F)) Variants.none c none) E (cc0__spp_kernel i arg2 harg2 arg3 harg3 arg4 harg4 arg5 harg5) K := by
  simp only [cc0__spp_kernel_eq_skeleton]; unfold cc0__spp_kernel_skel
  unfold owns
  iintro ⟨⟨%f2, %hf2, H2⟩, ⟨%f3, %hf3, H3⟩, ⟨%d2, %f4, -, H4⟩, ⟨%d3, %f5, -, H5⟩, Hk⟩
  obtain rfl := harg2.eq_unread hf2
  obtain rfl := harg3.eq_unread hf3
  sl_exec (disch := first | exact h1 | exact h2 | exact h3 | exact h4 | exact h5 | exact h6)
  sl_step
  iapply Hk
  isplitl [H2]
  · iexists _; isplitr; · ipureintro; exact harg2.read_unread _
    iexact H2
  isplitl [H3]
  · iexists _; isplitr
    swap; · iexact H3
    ipureintro
    rw [View.read_writes_eq_canon _ _ _ (fun y => ⟨_, List.mem_singleton_self _, View.mem_set_unit_zero hz5D inb_S1x1x1x1x64_S1x1x1x1x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x1x1x64) hz5D]
  isplitl [H4]
  · iexists _; isplitr
    swap; · iexact H4
    ipureintro
    rw [View.read_writes_eq_canon _ _ _ (fun y => ⟨_, List.mem_singleton_self _, View.mem_set_unit_zero hz5D inb_S1x1x2x2x64_S1x1x2x2x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x2x2x64) hz5D]
  · iexists _; isplitr
    swap; · iexact H5
    ipureintro
    rw [View.read_writes_eq_canon _ _ _ (fun y => ⟨_, List.mem_singleton_self _, View.mem_set_unit_zero hz5D inb_S1x1x4x4x64_S1x1x4x4x64_0_0_0_0_0 y⟩), View.canon_unit_zero hz5D]
    try sl_unfold_words
    simp only [View.readAt_eq_ld, harg2.read_unread, harg3.read_unread, View.ld_unit_zero (S := S1x8x64x64x64) hz5D, View.ld_unit_zero (S := S1x1x4x4x64) hz5D]

end Cert.KernelIdeal.Hand

end
-- ==== Proof.KIFrame.lean ====
/-
  The pooling kernel's run.  What each output's staging buffer holds after each grid point is a running maximum: at a
  point where the bin restarts, the slab's own bin maxima; elsewhere the larger of what the point before left and the
  slab's bin maxima (the buffer is not written back between: the whole-volume bin is written back after slab 7, the half
  bins after slabs 3 and 7, the quarter bins after every odd slab).  With these as the proof data the body meets its
  obligation at every point — by the kind of point — and the launch theorem gives the run of @main: the region, then the
  four host lines.
-/
import proofs.«177847_j73418170957951_1_alg».proof.Proof.KIBodyA
import proofs.«177847_j73418170957951_1_alg».proof.Proof.KIBodyB
import proofs.«177847_j73418170957951_1_alg».proof.Proof.KIBodyC
import proofs.«177847_j73418170957951_1_alg».proof.Proof.KIBodyD

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The running maxima, point by point -/

/-- The whole-volume bin after point `n`: restarted at slab 0 of each batch. -/
def o1At (c : Dev nD) : (n : ℕ) → n < cfg0.N → Vec F S1x1x1x1x64 .f32
  | 0, hn => k0_pay8 (iblk m c 0 ⟨0, hn⟩)
  | n + 1, hn =>
    if (n + 1) % 8 = 0 then k0_pay8 (iblk m c 0 ⟨n + 1, hn⟩)
    else k0_pay9 (iblk m c 0 ⟨n + 1, hn⟩) (o1At c n (Nat.lt_of_succ_lt hn))

/-- The half bins after point `n`: restarted at slabs 0 and 4. -/
def o2At (c : Dev nD) : (n : ℕ) → n < cfg0.N → Vec F S1x1x2x2x64 .f32
  | 0, hn => k0_pay10 (iblk m c 0 ⟨0, hn⟩)
  | n + 1, hn =>
    if (n + 1) % 4 = 0 then k0_pay10 (iblk m c 0 ⟨n + 1, hn⟩)
    else k0_pay1 (k0_pay6 (iblk m c 0 ⟨n + 1, hn⟩)) (o2At c n (Nat.lt_of_succ_lt hn))

/-- The quarter bins after point `n`: restarted at every even slab. -/
def o3At (c : Dev nD) : (n : ℕ) → n < cfg0.N → Vec F S1x1x4x4x64 .f32
  | 0, hn => k0_pay2 (k0_pay7 (iblk m c 0 ⟨0, hn⟩))
  | n + 1, hn =>
    if (n + 1) % 2 = 0 then k0_pay2 (k0_pay7 (iblk m c 0 ⟨n + 1, hn⟩))
    else k0_pay3 (k0_pay7 (iblk m c 0 ⟨n + 1, hn⟩)) (o3At c n (Nat.lt_of_succ_lt hn))

theorem o1At_reset (c : Dev nD) (t : Fin cfg0.N) (h : t.val % 8 = 0) :
    o1At m c t.val t.isLt = k0_pay8 (iblk m c 0 t) := by
  obtain ⟨n, hn⟩ := t
  cases n with
  | zero => exact rfl
  | succ n => exact (if_pos h).trans rfl

theorem o1At_acc (c : Dev nD) (t : Fin cfg0.N) (h : ¬ t.val % 8 = 0) :
    o1At m c t.val t.isLt = k0_pay9 (iblk m c 0 t) (o1At m c (t.val - 1) (Nat.lt_of_le_of_lt (Nat.sub_le _ _) t.isLt)) := by
  obtain ⟨n, hn⟩ := t
  cases n with
  | zero => exact absurd (Nat.zero_mod _) h
  | succ n => exact (if_neg h).trans rfl

theorem o2At_reset (c : Dev nD) (t : Fin cfg0.N) (h : t.val % 4 = 0) :
    o2At m c t.val t.isLt = k0_pay10 (iblk m c 0 t) := by
  obtain ⟨n, hn⟩ := t
  cases n with
  | zero => exact rfl
  | succ n => exact (if_pos h).trans rfl

theorem o2At_acc (c : Dev nD) (t : Fin cfg0.N) (h : ¬ t.val % 4 = 0) :
    o2At m c t.val t.isLt = k0_pay1 (k0_pay6 (iblk m c 0 t)) (o2At m c (t.val - 1) (Nat.lt_of_le_of_lt (Nat.sub_le _ _) t.isLt)) := by
  obtain ⟨n, hn⟩ := t
  cases n with
  | zero => exact absurd (Nat.zero_mod _) h
  | succ n => exact (if_neg h).trans rfl

theorem o3At_reset (c : Dev nD) (t : Fin cfg0.N) (h : t.val % 2 = 0) :
    o3At m c t.val t.isLt = k0_pay2 (k0_pay7 (iblk m c 0 t)) := by
  obtain ⟨n, hn⟩ := t
  cases n with
  | zero => exact rfl
  | succ n => exact (if_pos h).trans rfl

theorem o3At_acc (c : Dev nD) (t : Fin cfg0.N) (h : ¬ t.val % 2 = 0) :
    o3At m c t.val t.isLt = k0_pay3 (k0_pay7 (iblk m c 0 t)) (o3At m c (t.val - 1) (Nat.lt_of_le_of_lt (Nat.sub_le _ _) t.isLt)) := by
  obtain ⟨n, hn⟩ := t
  cases n with
  | zero => exact absurd (Nat.zero_mod _) h
  | succ n => exact (if_neg h).trans rfl

/-! ## The proof data -/

/-- The arrays as the region finds them; after the body at point `t` the input's buffer at its block and each output's
    at its running maximum; the scoped rest and the generator register as the invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => o1At m c t.val t.isLt
    | ⟨2, _⟩ => o2At m c t.val t.isLt
    | ⟨3, _⟩ => o3At m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = o1At m c t.val t.isLt := by dsimp only [dats]
theorem after0_2 (c : Dev nD) (t : Fin cfg0.N) : (dats m 0 c).after 2 t = o2At m c t.val t.isLt := by dsimp only [dats]
theorem after0_3 (c : Dev nD) (t : Fin cfg0.N) : (dats m 0 c).after 3 t = o3At m c t.val t.isLt := by dsimp only [dats]

/-- The input's current staging buffer holds its block at every point. -/
theorem before0_0 (c : Dev nD) (t : Fin cfg0.N) (d) : (dats m 0 c).before 0 t d = iblk m c 0 t :=
  before0_0_of m (dats m 0 c) (A_eq m c 0) (after0_0 m c) t d

/-- Every window is live at every coordinate: the body always stores into each output. -/
theorem live_all : ∀ (w : Fin cfg0.W) (i : grid0.Coords), cfg0.idle w i = false := by decide +kernel

/-- At a point where the whole-volume bin continues, its buffer holds what the point before left. -/
theorem before0_1_acc (c : Dev nD) (t : Fin cfg0.N) (h : ¬ t.val % 8 = 0) (d) :
    (dats m 0 c).before 1 t d = o1At m c (t.val - 1) (Nat.lt_of_le_of_lt (Nat.sub_le _ _) t.isLt) := by
  have hN : t.val < 32 := lt_of_lt_of_eq t.isLt (show cfg0.N = 32 from N_0)
  rw [Dat.before_out_kept _ 1 rfl t (by omega) (Bool.eq_false_iff.mpr fun hf => by have := (flush0_1 _).mp hf; dsimp only at this; omega)
    (live_all 1) (fun _ _ => rfl)]
  dsimp only [dats]

theorem before0_2_acc (c : Dev nD) (t : Fin cfg0.N) (h : ¬ t.val % 4 = 0) (d) :
    (dats m 0 c).before 2 t d = o2At m c (t.val - 1) (Nat.lt_of_le_of_lt (Nat.sub_le _ _) t.isLt) := by
  have hN : t.val < 32 := lt_of_lt_of_eq t.isLt (show cfg0.N = 32 from N_0)
  rw [Dat.before_out_kept _ 2 rfl t (by omega) (Bool.eq_false_iff.mpr fun hf => by have := (flush0_2 _).mp hf; dsimp only at this; omega)
    (live_all 2) (fun _ _ => rfl)]
  dsimp only [dats]

theorem before0_3_acc (c : Dev nD) (t : Fin cfg0.N) (h : ¬ t.val % 2 = 0) (d) :
    (dats m 0 c).before 3 t d = o3At m c (t.val - 1) (Nat.lt_of_le_of_lt (Nat.sub_le _ _) t.isLt) := by
  have hN : t.val < 32 := lt_of_lt_of_eq t.isLt (show cfg0.N = 32 from N_0)
  rw [Dat.before_out_kept _ 3 rfl t (by omega) (Bool.eq_false_iff.mpr fun hf => by have := (flush0_3 _).mp hf; dsimp only at this; omega)
    (live_all 3) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

theorem leaves0 (c : Dev nD) (t : Fin cfg0.N) :
    (dats m 0 c).leavesExact 0 t = owns (c : Thread nD τ) (ms0_0 t) fullShare (iblk m c 0 t) := by
  unfold Dat.leavesExact; rw [live0 0 t, after0_0]
theorem leaves1 (c : Dev nD) (t : Fin cfg0.N) :
    (dats m 0 c).leavesExact 1 t = owns (c : Thread nD τ) (ms0_1 t) fullShare (o1At m c t.val t.isLt) := by
  unfold Dat.leavesExact; rw [live0 1 t, after0_1]
theorem leaves2 (c : Dev nD) (t : Fin cfg0.N) :
    (dats m 0 c).leavesExact 2 t = owns (c : Thread nD τ) (ms0_2 t) fullShare (o2At m c t.val t.isLt) := by
  unfold Dat.leavesExact; rw [live0 2 t, after0_2]
theorem leaves3 (c : Dev nD) (t : Fin cfg0.N) :
    (dats m 0 c).leavesExact 3 t = owns (c : Thread nD τ) (ms0_3 t) fullShare (o3At m c t.val t.isLt) := by
  unfold Dat.leavesExact; rw [live0 3 t, after0_3]

set_option maxHeartbeats 1600000 in
/-- The body at any point: the input's buffer holds its block; the point's slab number says which bins restart; a bin
    that continues finds in its buffer what the point before left; so the matching run of the body applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0]
  rw [show (dats m 0 c).Φ t.succ = (dats m 0 c).Φ t.castSucc from rfl,
    show (dats m 0 c).owesAt () t.succ = (dats m 0 c).owesAt () t.castSucc from rfl,
    leaves0, leaves1, leaves2, leaves3]
  have hN : t.val < 32 := lt_of_lt_of_eq t.isLt (show cfg0.N = 32 from N_0)
  by_cases h8 : t.val % 8 = 0
  · -- slab 0: every bin restarts
    have h4 : t.val % 4 = 0 := by omega
    have h2 : t.val % 2 = 0 := by omega
    rw [o1At_reset m c t h8, o2At_reset m c t h4, o3At_reset m c t h2]
    iintro ⟨HΦ, Ho, ⟨%d0, H0⟩, ⟨%d1, H1⟩, ⟨%d2, H2⟩, ⟨%d3, H3⟩⟩
    iapply (bodyA c (grid0.coords t) _ _ _ _ _ _ _ _ ((hcond1 t).mpr h8) (fun h => (hcond2 t).mp h h8) ((hcond3 t).mpr h4)
      (fun h => (hcond4 t).mp h h4) ((hcond5 t).mpr h2) (fun h => (hcond6 t).mp h h2) (iblk m c 0 t) Set.univ _)
    isplitl [H0]; · iexact H0
    isplitl [H1]; · iexists _; iexact H1
    isplitl [H2]; · iexists _; iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · by_cases h4 : t.val % 4 = 0
    · -- slab 4: the half and quarter bins restart, the whole-volume bin continues
      have h2 : t.val % 2 = 0 := by omega
      rw [o1At_acc m c t h8, o2At_reset m c t h4, o3At_reset m c t h2]
      simp only [before0_1_acc m c t h8]
      iintro ⟨HΦ, Ho, ⟨%d0, H0⟩, ⟨%d1, H1⟩, ⟨%d2, H2⟩, ⟨%d3, H3⟩⟩
      iapply (bodyD c (grid0.coords t) _ _ _ _ _ _ _ _ (fun h => h8 ((hcond1 t).mp h)) ((hcond2 t).mpr h8) ((hcond3 t).mpr h4)
        (fun h => (hcond4 t).mp h h4) ((hcond5 t).mpr h2) (fun h => (hcond6 t).mp h h2) (iblk m c 0 t) _ Set.univ _)
      isplitl [H0]; · iexact H0
      isplitl [H1]; · iexact H1
      isplitl [H2]; · iexists _; iexact H2
      isplitl [H3]; · iexists _; iexact H3
      iintro ⟨H0, H1, H2, H3⟩
      isplitl [HΦ]; · iexact HΦ
      isplitl [Ho]; · iexact Ho
      isplitl [H0]; · iexact H0
      isplitl [H1]; · iexact H1
      isplitl [H2]; · iexact H2
      iexact H3
    · by_cases h2 : t.val % 2 = 0
      · -- slabs 2 and 6: only the quarter bins restart
        rw [o1At_acc m c t h8, o2At_acc m c t h4, o3At_reset m c t h2]
        simp only [before0_1_acc m c t h8, before0_2_acc m c t h4]
        iintro ⟨HΦ, Ho, ⟨%d0, H0⟩, ⟨%d1, H1⟩, ⟨%d2, H2⟩, ⟨%d3, H3⟩⟩
        iapply (bodyC c (grid0.coords t) _ _ _ _ _ _ _ _ (fun h => h8 ((hcond1 t).mp h)) ((hcond2 t).mpr h8) (fun h => h4 ((hcond3 t).mp h))
          ((hcond4 t).mpr h4) ((hcond5 t).mpr h2) (fun h => (hcond6 t).mp h h2) (iblk m c 0 t) _ _ Set.univ _)
        isplitl [H0]; · iexact H0
        isplitl [H1]; · iexact H1
        isplitl [H2]; · iexact H2
        isplitl [H3]; · iexists _; iexact H3
        iintro ⟨H0, H1, H2, H3⟩
        isplitl [HΦ]; · iexact HΦ
        isplitl [Ho]; · iexact Ho
        isplitl [H0]; · iexact H0
        isplitl [H1]; · iexact H1
        isplitl [H2]; · iexact H2
        iexact H3
      · -- odd slabs: every bin continues
        rw [o1At_acc m c t h8, o2At_acc m c t h4, o3At_acc m c t h2]
        simp only [before0_1_acc m c t h8, before0_2_acc m c t h4, before0_3_acc m c t h2]
        iintro ⟨HΦ, Ho, ⟨%d0, H0⟩, ⟨%d1, H1⟩, ⟨%d2, H2⟩, ⟨%d3, H3⟩⟩
        iapply (bodyB c (grid0.coords t) _ _ _ _ _ _ _ _ (fun h => h8 ((hcond1 t).mp h)) ((hcond2 t).mpr h8) (fun h => h4 ((hcond3 t).mp h))
          ((hcond4 t).mpr h4) (fun h => h2 ((hcond5 t).mp h)) ((hcond6 t).mpr h2) (iblk m c 0 t) _ _ _ Set.univ _)
        isplitl [H0]; · iexact H0
        isplitl [H1]; · iexact H1
        isplitl [H2]; · iexact H2
        isplitl [H3]; · iexact H3
        iintro ⟨H0, H1, H2, H3⟩
        isplitl [HΦ]; · iexact HΦ
        isplitl [Ho]; · iexact Ho
        isplitl [H0]; · iexact H0
        isplitl [H1]; · iexact H1
        isplitl [H2]; · iexact H2
        iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the region ends at what the proof data compute, every
    other unscoped buffer as the four host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs to the end and the argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of m ρ (dats m) (A_eq m) (run_main m ρ)

end Cert.KernelIdeal.Hand

end
-- ==== Proof.LibNary3.lean ====
/-
  A general lemma about the run of a straight line of host operations: the result of an operation of THREE operands
  given as a literal family of references, with each operand's contents read at its own reference.
-/
import Idealize.ShloMosaic.Lib.StableHlo.Run

namespace Idealize.ShloMosaic.StableHlo

variable {τ : Topo} {sig : RefSig} {Val : EltTy → Type} {x a b y : Ref sig .tc}

/-- An operation over a LITERAL family of three references (a concatenation of three operands): its result buffer
    holds the function's value at the family of the three operands' contents, each read AT ITS OWN REFERENCE — the
    family `Fin.cons (F x) (Fin.cons (F a) (Fin.cons (F b) _))` in place of `fun k => F (![x, a, b] k)` —, so that the
    operands' own contents can be rewritten further: under the binder the reference `![x, a, b] k` is no literal. The
    two families agree at each of the three indices by computation. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo
-- ==== Proof.KITail.lean ====
/-
  The pooling kernel's result.  After the region the three pooled arrays are reshaped to rows and concatenated; as one
  function of the three arrays that is `ktail`.  The run of @main therefore ends with the result buffer at `ktail` of what
  the region left in its three output arrays, and with the argument array as launched.
-/
import proofs.«177847_j73418170957951_1_alg».proof.Proof.KIFrame
import proofs.«177847_j73418170957951_1_alg».proof.Proof.LibNary3
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The four host lines as one function of the three pooled arrays: each reshaped to one row per batch entry, the
    rows laid side by side. -/
def ktail (a1 : FVec F S4x1x1x1x64 .f32) (a2 : FVec F S4x2x2x2x64 .f32) (a3 : FVec F S4x4x4x4x64 .f32) : FVec F S4x4672 .f32 :=
  concatenate S4x4672 1 [⟨S4x64, shapeCast S4x64 a1 shapeCasts_S4x1x1x1x64_S4x64⟩, ⟨S4x512, shapeCast S4x512 a2 shapeCasts_S4x2x2x2x64_S4x512⟩,
    ⟨S4x4096, shapeCast S4x4096 a3 shapeCasts_S4x4x4x4x64_S4x4096⟩] concatenates_S4x64_S4x512_S4x4096_S4x4672_d1

open Idealize.ShloMosaic.StableHlo in
/-- What the host lines leave in the result buffer, from the region's exit contents. -/
theorem tail_eq (c : Dev nD) :
    Pipeline.afterTail₀ cfgs (dats m) 0 (V0 m) [hostOps1] c main_v4
      = ktail ((dats m 0 c).arrAt 1 cfg0.N) ((dats m 0 c).arrAt 2 cfg0.N) ((dats m 0 c).arrAt 3 cfg0.N) := by
  unfold Pipeline.afterTail₀
  show StableHlo.after hostOps1 _ (Proc.devRef .tc main_v4) = _
  simp only [after_cons, after_nil]
  rw [nary3_result]
  repeat (first | rw [reshape_result] | (rw [reshape_result_ne]; rotate_left; decide))
  have e1 : Pipeline.withArrays (cfgs 0).spec c (V0 m c) (fun w => (dats m 0 c).arrAt w (cfgs 0).N) (Proc.devRef .tc main_v0_0)
      = (dats m 0 c).arrAt 1 cfg0.N := Pipeline.withArrays_arr spec0 launch0.win.arr_inj c _ _ 1
  have e2 : Pipeline.withArrays (cfgs 0).spec c (V0 m c) (fun w => (dats m 0 c).arrAt w (cfgs 0).N) (Proc.devRef .tc main_v0_1)
      = (dats m 0 c).arrAt 2 cfg0.N := Pipeline.withArrays_arr spec0 launch0.win.arr_inj c _ _ 2
  have e3 : Pipeline.withArrays (cfgs 0).spec c (V0 m c) (fun w => (dats m 0 c).arrAt w (cfgs 0).N) (Proc.devRef .tc main_v0_2)
      = (dats m 0 c).arrAt 3 cfg0.N := Pipeline.withArrays_arr spec0 launch0.win.arr_inj c _ _ 3
  rw [e1, e2, e3]
  rfl

/-- The run of @main, read: the result buffer at `ktail` of what the region left in its three output arrays, the argument
    array as launched. -/
theorem run_value : θ_run defs (onTc (τ := τ) (main (F := F))) ⟨m, fun _ => 0, ρ⟩ (fun r => ∀ c : Dev nD,
      r.2.mem ((c.tc : Thread nD τ).loc main_v4) = ktail ((dats m 0 c).arrAt 1 cfg0.N) ((dats m 0 c).arrAt 2 cfg0.N) ((dats m 0 c).arrAt 3 cfg0.N)
      ∧ r.2.mem ((c.tc : Thread nD τ).loc main_arg0) = m ((c.tc : Thread nD τ).loc main_arg0)) :=
  (θ_run defs _ _).mono (fun _ h c =>
    ⟨((h c).2 main_v4 (Pipeline.mem_restRefs_of main_v4 rfl (by decide))).trans (tail_eq m c),
      ((h c).1 0).trans (((dats m 0 c).arrAt_in 0 rfl _).trans ((A_eq m c 0).trans (V_main_arg0 m c)))⟩) (run_main m ρ)

end Cert.KernelIdeal.Hand

end
-- ==== Proof.PoolSpec.lean ====
/-
  The pooling specification both programs meet.  Every entry of the result is a MAXIMUM of the input volume over one
  box of (height, width, depth) positions at a fixed batch and channel; on the extended reals a maximum over a finite
  family is determined by its upper bounds, so "v is the maximum of f over the indices satisfying P" is stated as
  `∀ z, v ≤ z ↔ ∀ i, P i → f i ≤ z`: two values that are the maximum of one family are equal, the maximum of two maxima is
  the maximum over the union, a maximum of maxima is the maximum over the union of the families, and a maximum over
  the image of an index map is the maximum of the composed family.  No arithmetic law beyond the order is needed, so
  the inputs' finiteness is never used.
-/
import Mathlib.Data.EReal.Basic
import Mathlib.Data.Finset.Fold
import Idealize.ShloMosaic.PureOps.Ideal

namespace Cert.Pool

open Idealize.ShloMosaic

/-- `v` is the least upper bound (the maximum, `-∞` when there is none) of `f` over the indices satisfying `P`. -/
def SupOf {ι : Type} (v : EReal) (P : ι → Prop) (f : ι → EReal) : Prop :=
  ∀ z : EReal, v ≤ z ↔ ∀ i, P i → f i ≤ z

variable {ι κ : Type} {P Q : ι → Prop} {f : ι → EReal} {v w : EReal}

theorem SupOf.unique (h : SupOf v P f) (h' : SupOf w P f) : v = w :=
  le_antisymm ((h w).2 ((h' w).1 le_rfl)) ((h' v).2 ((h v).1 le_rfl))

theorem SupOf.congr (hPQ : ∀ i, P i ↔ Q i) (h : SupOf v P f) : SupOf v Q f :=
  fun z => (h z).trans ⟨fun H i hi => H i ((hPQ i).2 hi), fun H i hi => H i ((hPQ i).1 hi)⟩

theorem SupOf.bot : SupOf (⊥ : EReal) (fun _ : ι => False) f :=
  fun z => ⟨fun _ i hi => hi.elim, fun _ => bot_le⟩

/-- The larger of two maxima is the maximum over the union. -/
theorem SupOf.max (h : SupOf v P f) (h' : SupOf w Q f) : SupOf (max v w) (fun i => P i ∨ Q i) f :=
  fun z => by
    rw [max_le_iff, h z, h' z]
    exact ⟨fun H i hi => hi.elim (H.1 i) (H.2 i), fun H => ⟨fun i hi => H i (Or.inl hi), fun i hi => H i (Or.inr hi)⟩⟩

/-- A fold of `max` from `-∞` over a finite set is the maximum over the set. -/
theorem SupOf.fold (s : Finset ι) (f : ι → EReal) : SupOf (s.fold Max.max ⊥ f) (fun i => i ∈ s) f :=
  fun z => by
    rw [Finset.fold_max_le]
    exact ⟨fun H => H.2, fun H => ⟨bot_le, H⟩⟩

/-- A maximum of maxima is the maximum over the union of the families. -/
theorem SupOf.comp {g : κ → EReal} {R : κ → Prop} {P' : κ → ι → Prop}
    (h : SupOf v R g) (hg : ∀ k, R k → SupOf (g k) (P' k) f) : SupOf v (fun i => ∃ k, R k ∧ P' k i) f :=
  fun z => by
    rw [h z]
    constructor
    · rintro H i ⟨k, hk, hi⟩; exact (hg k hk z).1 (H k hk) i hi
    · intro H k hk; exact (hg k hk z).2 fun i hi => H i ⟨k, hk, hi⟩

/-- A maximum of a family read through an index map is the maximum over the image. -/
theorem SupOf.map {R : κ → Prop} (e : κ → ι) (h : SupOf v R (f ∘ e)) : SupOf v (fun i => ∃ k, R k ∧ e k = i) f :=
  fun z => by
    rw [h z]
    constructor
    · rintro H i ⟨k, hk, rfl⟩; exact H k hk
    · intro H k hk; exact H (e k) ⟨k, hk, rfl⟩

/-- The pattern `0xFF800000` is `-∞`, the bottom of the extended reals. -/
theorem ofBits_neg_inf : (FloatOps.ofBits (F := Ideal) .f32 0xFF800000#32 : EReal) = ⊥ := by
  simp [Ideal.ofBits_def, Ideal.ofBits, Ideal.ieee]

/-- The input volume: batch, height, width, depth, channel. -/
abbrev SX : Shape := ⟨5, ![4, 64, 64, 64, 64]⟩

/-- The box of input positions pooled into bin `(i, j, k)` of side `ph` at batch `b` and channel `ch`. -/
def InBin (ph b i j k ch : ℕ) (x : SX.Idx) : Prop :=
  (x 0).val = b ∧ (x 1).val / ph = i ∧ (x 2).val / ph = j ∧ (x 3).val / ph = k ∧ (x 4).val = ch

end Cert.Pool
-- ==== Proof.KIPay.lean ====
/-
  What the pooling kernel's body stores, entry by entry, over the extended reals.  The body loads one block (one batch entry, a
  slab of eight heights, 64 widths, 64 depths, 64 channels), takes the maximum over the eight heights, and for p = 1, 2, 4 cuts
  the resulting (width, depth, channel) plane into p × p bins of (64 / p) × (64 / p) positions and takes each bin's maximum, first
  over the depths within the bin and then over the widths within the bin.  Every step is a maximum from the bottom element, so
  each stored entry is the maximum of the block over one box of positions: a reduction along one axis is the maximum over the
  union of the boxes of the entries it runs through, and a reshape only renames the entry (position (j, w, k, d, c) of the
  five-axis array is position (q j + w, q k + d, c) of the plane, q = 64 / p).  The payloads that accumulate are the larger of
  what the output buffer held and the bin's maximum.
-/
import proofs.«177847_j73418170957951_1_alg».proof.Proof.Gen.KernelIdeal.Skeleton
import proofs.«177847_j73418170957951_1_alg».proof.Proof.PoolSpec
import Idealize.ShloMosaic.PureOps.Ideal.Laws
import Idealize.ShloMosaic.Lib.ValueIdx
import Idealize.ShloMosaic.Lib.Pipeline.Value
import Idealize.ShloMosaic.Lib.ValueLayout

namespace Cert.KernelIdeal.Hand

open Cert.KernelIdeal Cert.KernelIdeal.Gen Cert.Pool Idealize.ShloMosaic Idealize.ShloMosaic.ValueIdx

variable {ι : Type}

/-- A value of a family is the maximum of the family over the one index it sits at. -/
theorem SupOf.point (f : ι → EReal) (k : ι) : SupOf (f k) (fun i => i = k) f :=
  fun _ => ⟨fun h _ hi => hi ▸ h, fun h => h k rfl⟩

/-- A maximum over one axis, from the bottom element: if each entry of the source along the axis is the maximum of `f` over
    a set, the reduced entry is the maximum of `f` over the union of those sets. -/
theorem red1_sup {s t : Shape} {a : Fin s.rank} (src : FVec Ideal s .f32) (h : s.Reduces [a] t)
    (hφ : FKind.Formats .f32) (hacc : (0xFF800000#32 : BitVec 32) = FKind.maximumf.neutral .f32 hφ)
    (f : ι → EReal) (Q : Fin (s.size a) → ι → Prop) (j : t.Idx)
    (hsrc : ∀ k, SupOf (src (h.lift j k)) (Q k) f) :
    SupOf (multiReduction .maximumf [a] t src 0xFF800000#32 h hφ hacc j) (fun x => ∃ k, Q k x) f := by
  rw [Ideal.multiReduction_maximumf_single, ofBits_neg_inf]
  exact ((SupOf.fold Finset.univ (src ∘ h.lift j)).comp (fun k _ => hsrc k)).congr (by simp)

/-! ## One reduced axis: the index over a result index with the dropped coordinate put back -/

section Lift
variable {n0 n1 n2 n3 n4 : ℕ}

theorem lift4_0 (h : Shape.Reduces ⟨4, ![n0, n1, n2, n3]⟩ [0] ⟨3, ![n1, n2, n3]⟩) (b : Fin n1) (c : Fin n2) (d : Fin n3) (a : Fin n0) :
    h.lift (ix3 b c d) a = ix4 a b c d := by
  funext x; apply Fin.ext
  match x with
  | ⟨0, _⟩ => rfl
  | ⟨1, _⟩ => rfl
  | ⟨2, _⟩ => rfl
  | ⟨3, _⟩ => rfl

theorem lift4_1 (h : Shape.Reduces ⟨4, ![n0, n1, n2, n3]⟩ [1] ⟨3, ![n0, n2, n3]⟩) (a : Fin n0) (c : Fin n2) (d : Fin n3) (b : Fin n1) :
    h.lift (ix3 a c d) b = ix4 a b c d := by
  funext x; apply Fin.ext
  match x with
  | ⟨0, _⟩ => rfl
  | ⟨1, _⟩ => rfl
  | ⟨2, _⟩ => rfl
  | ⟨3, _⟩ => rfl

theorem lift5_3 (h : Shape.Reduces ⟨5, ![n0, n1, n2, n3, n4]⟩ [3] ⟨4, ![n0, n1, n2, n4]⟩) (a : Fin n0) (b : Fin n1) (c : Fin n2) (e : Fin n4)
    (d : Fin n3) : h.lift (ix4 a b c e) d = ix5 a b c d e := by
  funext x; apply Fin.ext
  match x with
  | ⟨0, _⟩ => rfl
  | ⟨1, _⟩ => rfl
  | ⟨2, _⟩ => rfl
  | ⟨3, _⟩ => rfl
  | ⟨4, _⟩ => rfl
end Lift

/-! ## A maximum along one axis, entry by entry -/

section Red
variable {n0 n1 n2 n3 n4 : ℕ}

/-- The maximum over axis 0 of a rank-4 array, entry by entry. -/
theorem red4_0_sup (src : FVec Ideal ⟨4, ![n0, n1, n2, n3]⟩ .f32) (h : Shape.Reduces ⟨4, ![n0, n1, n2, n3]⟩ [0] ⟨3, ![n1, n2, n3]⟩)
    (hφ : FKind.Formats .f32) (hacc : (0xFF800000#32 : BitVec 32) = FKind.maximumf.neutral .f32 hφ)
    (f : ι → EReal) (Q : Fin n0 → ι → Prop) (b : Fin n1) (c : Fin n2) (d : Fin n3)
    (hsrc : ∀ a : Fin n0, SupOf (src (ix4 a b c d)) (Q a) f) :
    SupOf (multiReduction .maximumf [0] ⟨3, ![n1, n2, n3]⟩ src 0xFF800000#32 h hφ hacc (ix3 b c d)) (fun x => ∃ a, Q a x) f :=
  red1_sup src h hφ hacc f Q (ix3 b c d) fun a => by
    have e := lift4_0 h b c d a
    rw [e]; exact hsrc a

/-- The maximum over axis 1 of a rank-4 array, entry by entry. -/
theorem red4_1_sup (src : FVec Ideal ⟨4, ![n0, n1, n2, n3]⟩ .f32) (h : Shape.Reduces ⟨4, ![n0, n1, n2, n3]⟩ [1] ⟨3, ![n0, n2, n3]⟩)
    (hφ : FKind.Formats .f32) (hacc : (0xFF800000#32 : BitVec 32) = FKind.maximumf.neutral .f32 hφ)
    (f : ι → EReal) (Q : Fin n1 → ι → Prop) (a : Fin n0) (c : Fin n2) (d : Fin n3)
    (hsrc : ∀ b : Fin n1, SupOf (src (ix4 a b c d)) (Q b) f) :
    SupOf (multiReduction .maximumf [1] ⟨3, ![n0, n2, n3]⟩ src 0xFF800000#32 h hφ hacc (ix3 a c d)) (fun x => ∃ b, Q b x) f :=
  red1_sup src h hφ hacc f Q (ix3 a c d) fun b => by
    have e := lift4_1 h a c d b
    rw [e]; exact hsrc b

/-- The maximum over axis 3 of a rank-5 array, entry by entry. -/
theorem red5_3_sup (src : FVec Ideal ⟨5, ![n0, n1, n2, n3, n4]⟩ .f32)
    (h : Shape.Reduces ⟨5, ![n0, n1, n2, n3, n4]⟩ [3] ⟨4, ![n0, n1, n2, n4]⟩)
    (hφ : FKind.Formats .f32) (hacc : (0xFF800000#32 : BitVec 32) = FKind.maximumf.neutral .f32 hφ)
    (f : ι → EReal) (Q : Fin n3 → ι → Prop) (a : Fin n0) (b : Fin n1) (c : Fin n2) (e : Fin n4)
    (hsrc : ∀ d : Fin n3, SupOf (src (ix5 a b c d e)) (Q d) f) :
    SupOf (multiReduction .maximumf [3] ⟨4, ![n0, n1, n2, n4]⟩ src 0xFF800000#32 h hφ hacc (ix4 a b c e)) (fun x => ∃ d, Q d x) f :=
  red1_sup src h hφ hacc f Q (ix4 a b c e) fun d => by
    have e' := lift5_3 h a b c e d
    rw [e']; exact hsrc d
end Red

/-! ## A leading unit axis dropped from or added to a rank-4 array -/

section Cast
variable {α : Type} {a b c d : ℕ}

/-- A `[1, a, b, c, d]` array cast to `[a, b, c, d]` reads, at `(i, j, k, l)`, the operand at `(0, i, j, k, l)`. -/
theorem shapeCast_1abcd_abcd_apply (x : (⟨5, ![1, a, b, c, d]⟩ : Shape).Idx → α)
    (h : (⟨5, ![1, a, b, c, d]⟩ : Shape).ShapeCasts ⟨4, ![a, b, c, d]⟩) (i : Fin a) (j : Fin b) (k : Fin c) (l : Fin d) :
    shapeCast ⟨4, ![a, b, c, d]⟩ x h (ix4 i j k l) = x (ix5 (0 : Fin 1) i j k l) :=
  shapeCast_apply x h _ _ (by
    rw [Shape.rowMajor_val_five, Shape.rowMajor_val_four]
    show (((0 * a + i.val) * b + j.val) * c + k.val) * d + l.val = ((i.val * b + j.val) * c + k.val) * d + l.val
    rw [Nat.zero_mul, Nat.zero_add])

/-- An `[a, b, c, d]` array cast to `[1, a, b, c, d]` reads, at `(u, i, j, k, l)`, the operand at `(i, j, k, l)`. -/
theorem shapeCast_abcd_1abcd_apply (x : (⟨4, ![a, b, c, d]⟩ : Shape).Idx → α)
    (h : (⟨4, ![a, b, c, d]⟩ : Shape).ShapeCasts ⟨5, ![1, a, b, c, d]⟩) (u : Fin 1) (i : Fin a) (j : Fin b) (k : Fin c) (l : Fin d) :
    shapeCast ⟨5, ![1, a, b, c, d]⟩ x h (ix5 u i j k l) = x (ix4 i j k l) :=
  shapeCast_apply x h _ _ (by
    have hu : u.val = 0 := by omega
    rw [Shape.rowMajor_val_five, Shape.rowMajor_val_four]
    show ((i.val * b + j.val) * c + k.val) * d + l.val = (((u.val * a + i.val) * b + j.val) * c + k.val) * d + l.val
    rw [hu, Nat.zero_mul, Nat.zero_add])
end Cast

/-- A rank-5 index is the tuple of its coordinates, given as naturals. -/
theorem idx5_eq {n0 n1 n2 n3 n4 : ℕ} (i : (⟨5, ![n0, n1, n2, n3, n4]⟩ : Shape).Idx) (a : Fin n0) (b : Fin n1) (c : Fin n2) (d : Fin n3)
    (e : Fin n4) (h0 : (i 0).val = a.val) (h1 : (i 1).val = b.val) (h2 : (i 2).val = c.val) (h3 : (i 3).val = d.val)
    (h4 : (i 4).val = e.val) : i = ix5 a b c d e := by
  funext x; apply Fin.ext
  match x with
  | ⟨0, _⟩ => exact h0
  | ⟨1, _⟩ => exact h1
  | ⟨2, _⟩ => exact h2
  | ⟨3, _⟩ => exact h3
  | ⟨4, _⟩ => exact h4

/-! ## The maxima over the heights -/

/-- The plane of maxima over the eight heights: entry `(w, d, c)` is the maximum of the block over the positions of width `w`,
    depth `d` and channel `c`. -/
theorem pay4_sup (x0 : Vec Ideal S1x8x64x64x64 .f32) (w d c : Fin 64) :
    SupOf (k0_pay4 (F := Ideal) x0 (ix3 w d c))
      (fun i : S1x8x64x64x64.Idx => (i 2).val = w.val ∧ (i 3).val = d.val ∧ (i 4).val = c.val) x0 := by
  unfold k0_pay4
  refine (red4_0_sup _ _ _ _ x0 (fun (hh : Fin 8) i => i = ix5 (0 : Fin 1) hh w d c) w d c fun hh => ?_).congr fun i => ?_
  · rw [shapeCast_1abcd_abcd_apply]; exact SupOf.point x0 _
  · constructor
    · rintro ⟨hh, rfl⟩; exact ⟨rfl, rfl, rfl⟩
    · rintro ⟨h2, h3, h4⟩
      exact ⟨i 1, idx5_eq i 0 (i 1) w d c (by have h0 : (i 0).val < 1 := (i 0).isLt; show (i 0).val = 0; omega) rfl h2 h3 h4⟩

/-! ## The bins of the plane -/

section Bin
variable {p q m n : ℕ}

/-- Position `w` of bin `j` is position `q j + w` of the axis of length `p q`. -/
theorem bin_lt (hpq : p * q = m) (j : Fin p) (w : Fin q) : q * j.val + w.val < m := by
  have hj := j.isLt
  have hw := w.isLt
  calc q * j.val + w.val < q * j.val + q := by omega
    _ = q * (j.val + 1) := by ring
    _ ≤ q * p := Nat.mul_le_mul_left q (by omega)
    _ = m := by rw [Nat.mul_comm, hpq]

/-- The plane `[m, m, n]` with `m = p q`, cut into `p × p` bins of `q × q` positions: entry `(j, w, k, d, c)` of the reshaped array
    is entry `(q j + w, q k + d, c)` of the plane. -/
theorem cast_bin (hpq : p * q = m) {α : Type} (g : (⟨3, ![m, m, n]⟩ : Shape).Idx → α)
    (h : (⟨3, ![m, m, n]⟩ : Shape).ShapeCasts ⟨5, ![p, q, p, q, n]⟩) (j : Fin p) (w : Fin q) (k : Fin p) (d : Fin q) (c : Fin n) :
    shapeCast ⟨5, ![p, q, p, q, n]⟩ g h (ix5 j w k d c)
      = g (ix3 ⟨q * j.val + w.val, bin_lt hpq j w⟩ ⟨q * k.val + d.val, bin_lt hpq k d⟩ c) :=
  shapeCast_apply g h _ _ (by
    rw [Shape.rowMajor_val_five, Shape.rowMajor_val_three]
    show ((q * j.val + w.val) * m + (q * k.val + d.val)) * n + c.val
        = (((j.val * q + w.val) * p + k.val) * q + d.val) * n + c.val
    rw [← hpq]; ring)

/-- The maxima over the bins: if entry `(w, d, c)` of the plane is the maximum of `f` over the set `Q w d c`, then the plane reshaped
    to `[p, q, p, q, n]` and reduced over axis 3 and then axis 1 has at `(j, k, c)` the maximum of `f` over the union of the
    sets `Q (q j + w) (q k + d) c`, `w, d < q`. -/
theorem bin_sup (hpq : p * q = m) (g : FVec Ideal ⟨3, ![m, m, n]⟩ .f32) (f : ι → EReal) (Q : ℕ → ℕ → ℕ → ι → Prop)
    (hg : ∀ (w d : Fin m) (c : Fin n), SupOf (g (ix3 w d c)) (Q w.val d.val c.val) f)
    (hc : (⟨3, ![m, m, n]⟩ : Shape).ShapeCasts ⟨5, ![p, q, p, q, n]⟩)
    (h3 : Shape.Reduces ⟨5, ![p, q, p, q, n]⟩ [3] ⟨4, ![p, q, p, n]⟩)
    (h1 : Shape.Reduces ⟨4, ![p, q, p, n]⟩ [1] ⟨3, ![p, p, n]⟩)
    (hφ : FKind.Formats .f32) (hacc : (0xFF800000#32 : BitVec 32) = FKind.maximumf.neutral .f32 hφ)
    (hφ' : FKind.Formats .f32) (hacc' : (0xFF800000#32 : BitVec 32) = FKind.maximumf.neutral .f32 hφ')
    (j k : Fin p) (c : Fin n) :
    SupOf (multiReduction .maximumf [1] ⟨3, ![p, p, n]⟩
        (multiReduction .maximumf [3] ⟨4, ![p, q, p, n]⟩ (shapeCast ⟨5, ![p, q, p, q, n]⟩ g hc) 0xFF800000#32 h3 hφ hacc)
        0xFF800000#32 h1 hφ' hacc' (ix3 j k c))
      (fun x => ∃ w : Fin q, ∃ d : Fin q, Q (q * j.val + w.val) (q * k.val + d.val) c.val x) f := by
  refine red4_1_sup _ h1 hφ' hacc' f (fun w x => ∃ d : Fin q, Q (q * j.val + w.val) (q * k.val + d.val) c.val x) j k c fun w => ?_
  refine red5_3_sup _ h3 hφ hacc f (fun d x => Q (q * j.val + w.val) (q * k.val + d.val) c.val x) j w k c fun d => ?_
  rw [cast_bin hpq]
  exact hg _ _ _
end Bin

/-- The half bins: entry `(j, k, c)` is the maximum of the block over widths `32 j … 32 j + 31`, depths `32 k … 32 k + 31`, channel `c`. -/
theorem pay6_sup (x0 : Vec Ideal S1x8x64x64x64 .f32) (j k : Fin 2) (c : Fin 64) :
    SupOf (k0_pay6 (F := Ideal) x0 (ix3 j k c))
      (fun i : S1x8x64x64x64.Idx => (i 2).val / 32 = j.val ∧ (i 3).val / 32 = k.val ∧ (i 4).val = c.val) x0 := by
  unfold k0_pay6
  refine (bin_sup (p := 2) (q := 32) (m := 64) rfl (k0_pay4 x0) x0
    (fun (w d c : ℕ) (i : S1x8x64x64x64.Idx) => (i 2).val = w ∧ (i 3).val = d ∧ (i 4).val = c) (pay4_sup x0) _ _ _ _ _ _ _ j k c).congr fun i => ?_
  constructor
  · rintro ⟨w, d, h2, h3, h4⟩
    have := w.isLt; have := d.isLt
    exact ⟨by omega, by omega, h4⟩
  · rintro ⟨h2, h3, h4⟩
    exact ⟨⟨(i 2).val % 32, by omega⟩, ⟨(i 3).val % 32, by omega⟩, by show (i 2).val = 32 * j.val + (i 2).val % 32; omega,
      by show (i 3).val = 32 * k.val + (i 3).val % 32; omega, h4⟩

/-- The quarter bins: entry `(j, k, c)` is the maximum of the block over widths `16 j … 16 j + 15`, depths `16 k … 16 k + 15`,
    channel `c`. -/
theorem pay7_sup (x0 : Vec Ideal S1x8x64x64x64 .f32) (j k : Fin 4) (c : Fin 64) :
    SupOf (k0_pay7 (F := Ideal) x0 (ix3 j k c))
      (fun i : S1x8x64x64x64.Idx => (i 2).val / 16 = j.val ∧ (i 3).val / 16 = k.val ∧ (i 4).val = c.val) x0 := by
  unfold k0_pay7
  refine (bin_sup (p := 4) (q := 16) (m := 64) rfl (k0_pay4 x0) x0
    (fun (w d c : ℕ) (i : S1x8x64x64x64.Idx) => (i 2).val = w ∧ (i 3).val = d ∧ (i 4).val = c) (pay4_sup x0) _ _ _ _ _ _ _ j k c).congr fun i => ?_
  constructor
  · rintro ⟨w, d, h2, h3, h4⟩
    have := w.isLt; have := d.isLt
    exact ⟨by omega, by omega, h4⟩
  · rintro ⟨h2, h3, h4⟩
    exact ⟨⟨(i 2).val % 16, by omega⟩, ⟨(i 3).val % 16, by omega⟩, by show (i 2).val = 16 * j.val + (i 2).val % 16; omega,
      by show (i 3).val = 16 * k.val + (i 3).val % 16; omega, h4⟩

/-- The whole plane as one bin: entry `(j, k, c)` (`j = k = 0`) is the maximum of the block over channel `c`. -/
theorem pay5_sup (x0 : Vec Ideal S1x8x64x64x64 .f32) (j k : Fin 1) (c : Fin 64) :
    SupOf (k0_pay5 (F := Ideal) x0 (ix3 j k c)) (fun i : S1x8x64x64x64.Idx => (i 4).val = c.val) x0 := by
  unfold k0_pay5
  refine (bin_sup (p := 1) (q := 64) (m := 64) rfl (k0_pay4 x0) x0
    (fun (w d c : ℕ) (i : S1x8x64x64x64.Idx) => (i 2).val = w ∧ (i 3).val = d ∧ (i 4).val = c) (pay4_sup x0) _ _ _ _ _ _ _ j k c).congr fun i => ?_
  constructor
  · rintro ⟨w, d, h2, h3, h4⟩
    exact h4
  · intro h4
    have hj := j.isLt; have hk := k.isLt
    have h2 : (i 2).val < 64 := (i 2).isLt
    have h3 : (i 3).val < 64 := (i 3).isLt
    exact ⟨⟨(i 2).val, h2⟩, ⟨(i 3).val, h3⟩, by show (i 2).val = 64 * j.val + (i 2).val; omega,
      by show (i 3).val = 64 * k.val + (i 3).val; omega, h4⟩

/-! ## The stored payloads: the bins behind two added unit axes -/

theorem pay8_apply (x0 : Vec Ideal S1x8x64x64x64 .f32) (a b j k : Fin 1) (c : Fin 64) :
    k0_pay8 (F := Ideal) x0 (ix5 a b j k c) = k0_pay5 x0 (ix3 j k c) := by
  unfold k0_pay8
  rw [shapeCast_abcd_1abcd_apply, shapeCast_abc_1abc_apply]

theorem pay10_apply (x0 : Vec Ideal S1x8x64x64x64 .f32) (a b : Fin 1) (j k : Fin 2) (c : Fin 64) :
    k0_pay10 (F := Ideal) x0 (ix5 a b j k c) = k0_pay6 x0 (ix3 j k c) := by
  unfold k0_pay10
  rw [shapeCast_abcd_1abcd_apply, shapeCast_abc_1abc_apply]

theorem pay2_apply (v11 : FVec Ideal S4x4x64 .f32) (a b : Fin 1) (j k : Fin 4) (c : Fin 64) :
    k0_pay2 (F := Ideal) v11 (ix5 a b j k c) = v11 (ix3 j k c) := by
  unfold k0_pay2
  rw [shapeCast_abcd_1abcd_apply, shapeCast_abc_1abc_apply]

theorem pay8_sup (x0 : Vec Ideal S1x8x64x64x64 .f32) (y : S1x1x1x1x64.Idx) :
    SupOf (k0_pay8 (F := Ideal) x0 y) (fun i : S1x8x64x64x64.Idx => (i 4).val = (y 4).val) x0 := by
  have e : k0_pay8 (F := Ideal) x0 y = k0_pay5 x0 (ix3 (y 2) (y 3) (y 4)) :=
    (congrArg (k0_pay8 x0) (eq_ix5 y)).trans (pay8_apply x0 (y 0) (y 1) (y 2) (y 3) (y 4))
  rw [e]
  exact pay5_sup x0 (y 2) (y 3) (y 4)

theorem pay10_sup (x0 : Vec Ideal S1x8x64x64x64 .f32) (y : S1x1x2x2x64.Idx) :
    SupOf (k0_pay10 (F := Ideal) x0 y)
      (fun i : S1x8x64x64x64.Idx => (i 2).val / 32 = (y 2).val ∧ (i 3).val / 32 = (y 3).val ∧ (i 4).val = (y 4).val) x0 := by
  have e : k0_pay10 (F := Ideal) x0 y = k0_pay6 x0 (ix3 (y 2) (y 3) (y 4)) :=
    (congrArg (k0_pay10 x0) (eq_ix5 y)).trans (pay10_apply x0 (y 0) (y 1) (y 2) (y 3) (y 4))
  rw [e]
  exact pay6_sup x0 (y 2) (y 3) (y 4)

theorem pay2_sup (x0 : Vec Ideal S1x8x64x64x64 .f32) (y : S1x1x4x4x64.Idx) :
    SupOf (k0_pay2 (F := Ideal) (k0_pay7 x0) y)
      (fun i : S1x8x64x64x64.Idx => (i 2).val / 16 = (y 2).val ∧ (i 3).val / 16 = (y 3).val ∧ (i 4).val = (y 4).val) x0 := by
  have e : k0_pay2 (F := Ideal) (k0_pay7 x0) y = k0_pay7 x0 (ix3 (y 2) (y 3) (y 4)) :=
    (congrArg (k0_pay2 (k0_pay7 x0)) (eq_ix5 y)).trans (pay2_apply (k0_pay7 x0) (y 0) (y 1) (y 2) (y 3) (y 4))
  rw [e]
  exact pay7_sup x0 (y 2) (y 3) (y 4)

/-! ## The accumulating payloads: the larger of the buffer's entry and the bin's maximum -/

theorem pay9_eq (x0 : Vec Ideal S1x8x64x64x64 .f32) (y1 : Vec Ideal S1x1x1x1x64 .f32) (y : S1x1x1x1x64.Idx) :
    k0_pay9 (F := Ideal) x0 y1 y = max (y1 y) (k0_pay8 (F := Ideal) x0 y) := by
  have e := congrFun (shapeCast_shapeCast (s := S1x1x1x1x64) (t := S1x1x1x64) y1 (by decide) (by decide)) y
  unfold k0_pay9 k0_pay8
  exact congrArg (fun v => max v _) e

theorem pay1_eq (x0 : Vec Ideal S1x8x64x64x64 .f32) (y2 : Vec Ideal S1x1x2x2x64 .f32) (y : S1x1x2x2x64.Idx) :
    k0_pay1 (F := Ideal) (k0_pay6 x0) y2 y = max (y2 y) (k0_pay10 (F := Ideal) x0 y) := by
  have e := congrFun (shapeCast_shapeCast (s := S1x1x2x2x64) (t := S1x2x2x64) y2 (by decide) (by decide)) y
  unfold k0_pay1 k0_pay10
  exact congrArg (fun v => max v _) e

theorem pay3_eq (x0 : Vec Ideal S1x8x64x64x64 .f32) (y3 : Vec Ideal S1x1x4x4x64 .f32) (y : S1x1x4x4x64.Idx) :
    k0_pay3 (F := Ideal) (k0_pay7 x0) y3 y = max (y3 y) (k0_pay2 (F := Ideal) (k0_pay7 x0) y) := by
  have e := congrFun (shapeCast_shapeCast (s := S1x1x4x4x64) (t := S1x4x4x64) y3 (by decide) (by decide)) y
  unfold k0_pay3 k0_pay2
  exact congrArg (fun v => max v _) e

end Cert.KernelIdeal.Hand
-- ==== Proof.KIValue.lean ====
/-
  What the pooling kernel's three result arrays hold after its run, entry by entry, over the extended reals: entry
  (b, i, j, k, ch) of the array of bins of side 64, 32 or 16 is the maximum of the input volume over the box of
  positions of batch b and channel ch whose height, width and depth fall in bins i, j and k of that side.

  The argument in three steps.  (1) The slab the kernel reads at grid point t is the part of the volume at batch
  t / 8 and heights 8 (t % 8) … 8 (t % 8) + 7, so a maximum over the slab is a maximum over those positions of the
  volume.  (2) By induction on the grid point, the running maximum each output keeps is the maximum over batch t / 8
  and the slabs from the start of the point's bin of the height up to the point's own slab: where the bin restarts the
  set is the slab alone, elsewhere it is the set of the point before together with the slab, and the larger of two
  maxima is the maximum over the union.  (3) A bin is written back at its last slab, where that set is the whole box;
  every entry of a result array lies in the block of exactly such a point, and whichever point wrote it last wrote
  the maximum over its box.
-/
import proofs.«177847_j73418170957951_1_alg».proof.Proof.KIFrame
import proofs.«177847_j73418170957951_1_alg».proof.Proof.KIPay
import proofs.«177847_j73418170957951_1_alg».proof.Proof.PoolSpec
import Idealize.ShloMosaic.Lib.Pipeline.Value
import Idealize.ShloMosaic.Lib.ValueIdx

set_option maxRecDepth 16384

noncomputable section

namespace Cert.KernelIdeal.Hand

open Cert.KernelIdeal Cert.KernelIdeal.Gen Cert.Pool
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ)

/-! ## The slab read at a grid point, as part of the volume -/

/-- A maximum of a family that is another family read through an index map is the maximum of that other family over
    the image of the map, the image described by any equivalent condition. -/
theorem SupOf.reindex {ι κ : Type} {v : EReal} {R : κ → Prop} {Q : ι → Prop} {f : ι → EReal} {g : κ → EReal}
    (e : κ → ι) (hg : ∀ k, g k = f (e k)) (hQ : ∀ i, Q i ↔ ∃ k, R k ∧ e k = i) (h : SupOf v R g) : SupOf v Q f :=
  fun z => (h z).trans
    ⟨fun H i hi => by obtain ⟨k, hk, rfl⟩ := (hQ i).1 hi; rw [← hg]; exact H k hk,
     fun H k hk => by rw [hg]; exact H (e k) ((hQ _).2 ⟨k, hk, rfl⟩)⟩

/-- The input window's block index over the grid: point t is batch t / 8, slab t % 8. -/
theorem idx_in : ∀ t : Fin cfg0.N, win0_0.index t (0 : Fin 5) = t.val / 8 ∧ win0_0.index t (1 : Fin 5) = t.val % 8
    ∧ win0_0.index t (2 : Fin 5) = 0 ∧ win0_0.index t (3 : Fin 5) = 0 ∧ win0_0.index t (4 : Fin 5) = 0 :=
  (by decide +kernel : ∀ t : Fin grid0.N, _)

/-- Where element j of the slab at point t sits in the volume. -/
def slabIdx (t : Fin cfg0.N) (j : S1x8x64x64x64.Idx) : SX.Idx := ((cfg0.win 0).blk t).view.emb j

theorem iblk_apply (c : Dev nD) (t : Fin cfg0.N) (j : S1x8x64x64x64.Idx) :
    iblk m c 0 t j = m ((c : Thread nD τ).loc main_arg0) (slabIdx t j) := by
  unfold iblk slabIdx
  rw [View.read_apply]
  rfl

/-- Its coordinates: the batch t / 8; height 8 (t % 8) + j₁; the other three are j's own. -/
theorem slabIdx_val (t : Fin cfg0.N) (j : S1x8x64x64x64.Idx) :
    (slabIdx t j 0).val = t.val / 8 ∧ (slabIdx t j 1).val = 8 * (t.val % 8) + (j 1).val
    ∧ (slabIdx t j 2).val = (j 2).val ∧ (slabIdx t j 3).val = (j 3).val ∧ (slabIdx t j 4).val = (j 4).val := by
  obtain ⟨e0, e1, e2, e3, e4⟩ := idx_in t
  have h0 : (j 0).val < 1 := (j 0).isLt
  refine ⟨?_, ?_, ?_, ?_, ?_⟩
  · show win0_0.index t (0 : Fin 5) * 1 + 1 * (j 0).val = _; rw [e0]; omega
  · show win0_0.index t (1 : Fin 5) * 8 + 1 * (j 1).val = _; rw [e1]; omega
  · show win0_0.index t (2 : Fin 5) * 64 + 1 * (j 2).val = _; rw [e2]; omega
  · show win0_0.index t (3 : Fin 5) * 64 + 1 * (j 3).val = _; rw [e3]; omega
  · show win0_0.index t (4 : Fin 5) * 64 + 1 * (j 4).val = _; rw [e4]; omega

/-- A maximum over the slab at point t, its elements chosen by their width, depth and channel coordinates, is the
    maximum over the volume's positions of batch t / 8 and heights 8 (t % 8) … 8 (t % 8) + 7 so chosen. -/
theorem slab_sup (c : Dev nD) (t : Fin cfg0.N) {v : EReal} (R : ℕ → ℕ → ℕ → Prop)
    (h : SupOf v (fun j : S1x8x64x64x64.Idx => R (j 2).val (j 3).val (j 4).val) (iblk m c 0 t)) :
    SupOf v (fun x : SX.Idx => (x 0).val = t.val / 8 ∧ (x 1).val / 8 = t.val % 8 ∧ R (x 2).val (x 3).val (x 4).val)
      (m ((c : Thread nD τ).loc main_arg0)) := by
  refine SupOf.reindex (slabIdx t) (iblk_apply m c t) (fun x => ?_) h
  constructor
  · rintro ⟨hx0, hx1, hR⟩
    have b1 : (x 1).val < 64 := (x 1).isLt
    have b2 : (x 2).val < 64 := (x 2).isLt
    have b3 : (x 3).val < 64 := (x 3).isLt
    have b4 : (x 4).val < 64 := (x 4).isLt
    refine ⟨ix5 (⟨0, by omega⟩ : Fin 1) (⟨(x 1).val - 8 * (t.val % 8), by omega⟩ : Fin 8) (⟨(x 2).val, b2⟩ : Fin 64)
      (⟨(x 3).val, b3⟩ : Fin 64) (⟨(x 4).val, b4⟩ : Fin 64), hR, ?_⟩
    obtain ⟨s0, s1, s2, s3, s4⟩ := slabIdx_val t (ix5 (⟨0, by omega⟩ : Fin 1) (⟨(x 1).val - 8 * (t.val % 8), by omega⟩ : Fin 8)
      (⟨(x 2).val, b2⟩ : Fin 64) (⟨(x 3).val, b3⟩ : Fin 64) (⟨(x 4).val, b4⟩ : Fin 64))
    funext a
    apply Fin.ext
    match a with
    | ⟨0, _⟩ => exact s0.trans hx0.symm
    | ⟨1, _⟩ => refine s1.trans ?_; show 8 * (t.val % 8) + ((x 1).val - 8 * (t.val % 8)) = (x 1).val; omega
    | ⟨2, _⟩ => exact s2
    | ⟨3, _⟩ => exact s3
    | ⟨4, _⟩ => exact s4
  · rintro ⟨j, hR, rfl⟩
    obtain ⟨s0, s1, s2, s3, s4⟩ := slabIdx_val t j
    have b1 : (j 1).val < 8 := (j 1).isLt
    refine ⟨s0, by rw [s1]; omega, ?_⟩
    rw [s2, s3, s4]; exact hR

/-! ## The running maxima as maxima over the volume -/

/-- The half bins after point n: the maximum over batch n / 8, the slabs of the point's half of the height up to the
    point's own, and the bin's width and depth. -/
theorem o2At_sup (c : Dev nD) : ∀ (n : ℕ) (hn : n < cfg0.N) (y : S1x1x2x2x64.Idx),
    SupOf (o2At m c n hn y)
      (fun x : SX.Idx => (x 0).val = n / 8 ∧ (x 1).val / 32 = (n % 8) / 4 ∧ (x 1).val / 8 ≤ n % 8
        ∧ (x 2).val / 32 = (y 2).val ∧ (x 3).val / 32 = (y 3).val ∧ (x 4).val = (y 4).val)
      (m ((c : Thread nD τ).loc main_arg0))
  | 0, hn, y => by
    have hs := slab_sup m c ⟨0, hn⟩ (fun a b d => a / 32 = (y 2).val ∧ b / 32 = (y 3).val ∧ d = (y 4).val)
      (pay10_sup (iblk m c 0 ⟨0, hn⟩) y)
    rw [o2At_reset m c ⟨0, hn⟩ rfl]
    refine SupOf.congr (fun x => ?_) hs
    show (x 0).val = 0 / 8 ∧ (x 1).val / 8 = 0 % 8 ∧ _ ↔ (x 0).val = 0 / 8 ∧ (x 1).val / 32 = (0 % 8) / 4 ∧ (x 1).val / 8 ≤ 0 % 8 ∧ _
    exact ⟨fun ⟨a, b, r⟩ => ⟨a, by omega, by omega, r⟩, fun ⟨a, b, d, r⟩ => ⟨a, by omega, r⟩⟩
  | n + 1, hn, y => by
    have hs := slab_sup m c ⟨n + 1, hn⟩ (fun a b d => a / 32 = (y 2).val ∧ b / 32 = (y 3).val ∧ d = (y 4).val)
      (pay10_sup (iblk m c 0 ⟨n + 1, hn⟩) y)
    by_cases h4 : (n + 1) % 4 = 0
    · rw [o2At_reset m c ⟨n + 1, hn⟩ h4]
      refine SupOf.congr (fun x => ?_) hs
      show (x 0).val = (n + 1) / 8 ∧ (x 1).val / 8 = (n + 1) % 8 ∧ _ ↔ (x 0).val = (n + 1) / 8 ∧ (x 1).val / 32 = ((n + 1) % 8) / 4 ∧ (x 1).val / 8 ≤ (n + 1) % 8 ∧ _
      exact ⟨fun ⟨a, b, r⟩ => ⟨a, by omega, by omega, r⟩, fun ⟨a, b, d, r⟩ => ⟨a, by omega, r⟩⟩
    · rw [o2At_acc m c ⟨n + 1, hn⟩ h4, pay1_eq]
      have ih := o2At_sup c n (Nat.lt_of_succ_lt hn) y
      refine SupOf.congr (fun x => ?_) (SupOf.max ih hs)
      show ((x 0).val = n / 8 ∧ (x 1).val / 32 = (n % 8) / 4 ∧ (x 1).val / 8 ≤ n % 8 ∧ _) ∨ ((x 0).val = (n + 1) / 8 ∧ (x 1).val / 8 = (n + 1) % 8 ∧ _)
        ↔ (x 0).val = (n + 1) / 8 ∧ (x 1).val / 32 = ((n + 1) % 8) / 4 ∧ (x 1).val / 8 ≤ (n + 1) % 8 ∧ _
      constructor
      · rintro (⟨a, b, d, r⟩ | ⟨a, b, r⟩)
        · exact ⟨by omega, by omega, by omega, r⟩
        · exact ⟨a, by omega, by omega, r⟩
      · rintro ⟨a, b, d, r⟩
        by_cases hl : (x 1).val / 8 = (n + 1) % 8
        · exact Or.inr ⟨a, hl, r⟩
        · exact Or.inl ⟨by omega, by omega, by omega, r⟩

/-- The quarter bins after point n: the maximum over batch n / 8, the slabs of the point's quarter of the height up to
    the point's own, and the bin's width and depth. -/
theorem o3At_sup (c : Dev nD) : ∀ (n : ℕ) (hn : n < cfg0.N) (y : S1x1x4x4x64.Idx),
    SupOf (o3At m c n hn y)
      (fun x : SX.Idx => (x 0).val = n / 8 ∧ (x 1).val / 16 = (n % 8) / 2 ∧ (x 1).val / 8 ≤ n % 8
        ∧ (x 2).val / 16 = (y 2).val ∧ (x 3).val / 16 = (y 3).val ∧ (x 4).val = (y 4).val)
      (m ((c : Thread nD τ).loc main_arg0))
  | 0, hn, y => by
    have hs := slab_sup m c ⟨0, hn⟩ (fun a b d => a / 16 = (y 2).val ∧ b / 16 = (y 3).val ∧ d = (y 4).val)
      (pay2_sup (iblk m c 0 ⟨0, hn⟩) y)
    rw [o3At_reset m c ⟨0, hn⟩ rfl]
    refine SupOf.congr (fun x => ?_) hs
    show (x 0).val = 0 / 8 ∧ (x 1).val / 8 = 0 % 8 ∧ _ ↔ (x 0).val = 0 / 8 ∧ (x 1).val / 16 = (0 % 8) / 2 ∧ (x 1).val / 8 ≤ 0 % 8 ∧ _
    exact ⟨fun ⟨a, b, r⟩ => ⟨a, by omega, by omega, r⟩, fun ⟨a, b, d, r⟩ => ⟨a, by omega, r⟩⟩
  | n + 1, hn, y => by
    have hs := slab_sup m c ⟨n + 1, hn⟩ (fun a b d => a / 16 = (y 2).val ∧ b / 16 = (y 3).val ∧ d = (y 4).val)
      (pay2_sup (iblk m c 0 ⟨n + 1, hn⟩) y)
    by_cases h2 : (n + 1) % 2 = 0
    · rw [o3At_reset m c ⟨n + 1, hn⟩ h2]
      refine SupOf.congr (fun x => ?_) hs
      show (x 0).val = (n + 1) / 8 ∧ (x 1).val / 8 = (n + 1) % 8 ∧ _ ↔ (x 0).val = (n + 1) / 8 ∧ (x 1).val / 16 = ((n + 1) % 8) / 2 ∧ (x 1).val / 8 ≤ (n + 1) % 8 ∧ _
      exact ⟨fun ⟨a, b, r⟩ => ⟨a, by omega, by omega, r⟩, fun ⟨a, b, d, r⟩ => ⟨a, by omega, r⟩⟩
    · rw [o3At_acc m c ⟨n + 1, hn⟩ h2, pay3_eq]
      have ih := o3At_sup c n (Nat.lt_of_succ_lt hn) y
      refine SupOf.congr (fun x => ?_) (SupOf.max ih hs)
      show ((x 0).val = n / 8 ∧ (x 1).val / 16 = (n % 8) / 2 ∧ (x 1).val / 8 ≤ n % 8 ∧ _) ∨ ((x 0).val = (n + 1) / 8 ∧ (x 1).val / 8 = (n + 1) % 8 ∧ _)
        ↔ (x 0).val = (n + 1) / 8 ∧ (x 1).val / 16 = ((n + 1) % 8) / 2 ∧ (x 1).val / 8 ≤ (n + 1) % 8 ∧ _
      constructor
      · rintro (⟨a, b, d, r⟩ | ⟨a, b, r⟩)
        · exact ⟨by omega, by omega, by omega, r⟩
        · exact ⟨a, by omega, by omega, r⟩
      · rintro ⟨a, b, d, r⟩
        by_cases hl : (x 1).val / 8 = (n + 1) % 8
        · exact Or.inr ⟨a, hl, r⟩
        · exact Or.inl ⟨by omega, by omega, by omega, r⟩

/-- The whole-volume bin after point n: the maximum over batch n / 8 and the slabs up to the point's own. -/
theorem o1At_sup (c : Dev nD) : ∀ (n : ℕ) (hn : n < cfg0.N) (y : S1x1x1x1x64.Idx),
    SupOf (o1At m c n hn y)
      (fun x : SX.Idx => (x 0).val = n / 8 ∧ (x 1).val / 8 ≤ n % 8 ∧ (x 4).val = (y 4).val)
      (m ((c : Thread nD τ).loc main_arg0))
  | 0, hn, y => by
    have hs := slab_sup m c ⟨0, hn⟩ (fun a b d => d = (y 4).val) (pay8_sup (iblk m c 0 ⟨0, hn⟩) y)
    rw [o1At_reset m c ⟨0, hn⟩ rfl]
    refine SupOf.congr (fun x => ?_) hs
    show (x 0).val = 0 / 8 ∧ (x 1).val / 8 = 0 % 8 ∧ _ ↔ (x 0).val = 0 / 8 ∧ (x 1).val / 8 ≤ 0 % 8 ∧ _
    exact ⟨fun ⟨a, b, r⟩ => ⟨a, by omega, r⟩, fun ⟨a, b, r⟩ => ⟨a, by omega, r⟩⟩
  | n + 1, hn, y => by
    have hs := slab_sup m c ⟨n + 1, hn⟩ (fun a b d => d = (y 4).val) (pay8_sup (iblk m c 0 ⟨n + 1, hn⟩) y)
    by_cases h8 : (n + 1) % 8 = 0
    · rw [o1At_reset m c ⟨n + 1, hn⟩ h8]
      refine SupOf.congr (fun x => ?_) hs
      show (x 0).val = (n + 1) / 8 ∧ (x 1).val / 8 = (n + 1) % 8 ∧ _ ↔ (x 0).val = (n + 1) / 8 ∧ (x 1).val / 8 ≤ (n + 1) % 8 ∧ _
      exact ⟨fun ⟨a, b, r⟩ => ⟨a, by omega, r⟩, fun ⟨a, b, r⟩ => ⟨a, by omega, r⟩⟩
    · rw [o1At_acc m c ⟨n + 1, hn⟩ h8, pay9_eq]
      have ih := o1At_sup c n (Nat.lt_of_succ_lt hn) y
      refine SupOf.congr (fun x => ?_) (SupOf.max ih hs)
      show ((x 0).val = n / 8 ∧ (x 1).val / 8 ≤ n % 8 ∧ _) ∨ ((x 0).val = (n + 1) / 8 ∧ (x 1).val / 8 = (n + 1) % 8 ∧ _)
        ↔ (x 0).val = (n + 1) / 8 ∧ (x 1).val / 8 ≤ (n + 1) % 8 ∧ _
      constructor
      · rintro (⟨a, b, r⟩ | ⟨a, b, r⟩)
        · exact ⟨by omega, by omega, r⟩
        · exact ⟨a, by omega, r⟩
      · rintro ⟨a, b, r⟩
        by_cases hl : (x 1).val / 8 = (n + 1) % 8
        · exact Or.inr ⟨a, hl, r⟩
        · exact Or.inl ⟨by omega, by omega, r⟩

/-! ## The write-backs and the final arrays -/

/-- The half-bin window's block index over the grid: batch t / 8, the half (t % 8) / 4 of the height. -/
theorem idx_o2 : ∀ t : Fin cfg0.N, win0_2.index t (0 : Fin 5) = t.val / 8 ∧ win0_2.index t (1 : Fin 5) = (t.val % 8) / 4
    ∧ win0_2.index t (2 : Fin 5) = 0 ∧ win0_2.index t (3 : Fin 5) = 0 ∧ win0_2.index t (4 : Fin 5) = 0 :=
  (by decide +kernel : ∀ t : Fin grid0.N, _)

/-- Where element j of the half-bin block at point t sits in its array. -/
def bin2Idx (t : Fin cfg0.N) (j : S1x1x2x2x64.Idx) : S4x2x2x2x64.Idx := ((cfg0.win 2).blk t).view.emb j

theorem bin2Idx_val (t : Fin cfg0.N) (j : S1x1x2x2x64.Idx) :
    (bin2Idx t j 0).val = t.val / 8 ∧ (bin2Idx t j 1).val = (t.val % 8) / 4
    ∧ (bin2Idx t j 2).val = (j 2).val ∧ (bin2Idx t j 3).val = (j 3).val ∧ (bin2Idx t j 4).val = (j 4).val := by
  obtain ⟨e0, e1, e2, e3, e4⟩ := idx_o2 t
  have h0 : (j 0).val < 1 := (j 0).isLt
  have h1 : (j 1).val < 1 := (j 1).isLt
  refine ⟨?_, ?_, ?_, ?_, ?_⟩
  · show win0_2.index t (0 : Fin 5) * 1 + 1 * (j 0).val = _; rw [e0]; omega
  · show win0_2.index t (1 : Fin 5) * 1 + 1 * (j 1).val = _; rw [e1]; omega
  · show win0_2.index t (2 : Fin 5) * 2 + 1 * (j 2).val = _; rw [e2]; omega
  · show win0_2.index t (3 : Fin 5) * 2 + 1 * (j 3).val = _; rw [e3]; omega
  · show win0_2.index t (4 : Fin 5) * 64 + 1 * (j 4).val = _; rw [e4]; omega

/-- After the run every entry of the half-bin array is the maximum of the input over its box of side 32. -/
theorem final2 (c : Dev nD) (y : S4x2x2x2x64.Idx) :
    SupOf ((dats m 0 c).arrAt 2 cfg0.N y) (InBin 32 (y 0).val (y 1).val (y 2).val (y 3).val (y 4).val)
      (m ((c : Thread nD τ).loc main_arg0)) := by
  have hN : cfg0.N = 32 := N_0
  refine (dats m 0 c).arrAt_forall_of_cover 2
    (fun (i : S4x2x2x2x64.Idx) (v : EReal) =>
      SupOf v (InBin 32 (i 0).val (i 1).val (i 2).val (i 3).val (i 4).val) (m ((c : Thread nD τ).loc main_arg0))) ?_ ?_ y
  · intro t hf j
    have h3 : t.val % 4 = 3 := (flush0_2 t).mp hf
    obtain ⟨s0, s1, s2, s3, s4⟩ := bin2Idx_val t j
    show SupOf (o2At m c t.val t.isLt j) (InBin 32 (bin2Idx t j 0).val (bin2Idx t j 1).val (bin2Idx t j 2).val (bin2Idx t j 3).val (bin2Idx t j 4).val) _
    rw [s0, s1, s2, s3, s4]
    refine SupOf.congr (fun x => ?_) (o2At_sup m c t.val t.isLt j)
    unfold InBin
    exact ⟨fun ⟨a, b, d, r⟩ => ⟨a, b, r⟩, fun ⟨a, b, r⟩ => ⟨a, b, by omega, r⟩⟩
  · intro i
    have b0 : (i 0).val < 4 := (i 0).isLt
    have b1 : (i 1).val < 2 := (i 1).isLt
    have b2 : (i 2).val < 2 := (i 2).isLt
    have b3 : (i 3).val < 2 := (i 3).isLt
    have b4 : (i 4).val < 64 := (i 4).isLt
    have ht : 8 * (i 0).val + 4 * (i 1).val + 3 < cfg0.N := by rw [hN]; omega
    obtain ⟨e0, e1, e2, e3, e4⟩ := idx_o2 ⟨8 * (i 0).val + 4 * (i 1).val + 3, ht⟩
    refine ⟨⟨8 * (i 0).val + 4 * (i 1).val + 3, ht⟩, (flush0_2 _).mpr (by show (8 * (i 0).val + 4 * (i 1).val + 3) % 4 = 3; omega), ?_⟩
    show i ∈ ((View.whole main_v0_1).slice (win0_2.rect ⟨8 * (i 0).val + 4 * (i 1).val + 3, ht⟩)).set
    rw [View.set_slice_whole, Rect.mem_set_unit]
    intro a
    match a with
    | ⟨0, _⟩ => show win0_2.index _ (0 : Fin 5) * 1 ≤ (i 0).val ∧ (i 0).val < win0_2.index _ (0 : Fin 5) * 1 + 1; rw [e0]; dsimp only; omega
    | ⟨1, _⟩ => show win0_2.index _ (1 : Fin 5) * 1 ≤ (i 1).val ∧ (i 1).val < win0_2.index _ (1 : Fin 5) * 1 + 1; rw [e1]; dsimp only; omega
    | ⟨2, _⟩ => show win0_2.index _ (2 : Fin 5) * 2 ≤ (i 2).val ∧ (i 2).val < win0_2.index _ (2 : Fin 5) * 2 + 2; rw [e2]; omega
    | ⟨3, _⟩ => show win0_2.index _ (3 : Fin 5) * 2 ≤ (i 3).val ∧ (i 3).val < win0_2.index _ (3 : Fin 5) * 2 + 2; rw [e3]; omega
    | ⟨4, _⟩ => show win0_2.index _ (4 : Fin 5) * 64 ≤ (i 4).val ∧ (i 4).val < win0_2.index _ (4 : Fin 5) * 64 + 64; rw [e4]; omega

/-- The quarter-bin window's block index over the grid: batch t / 8, the quarter (t % 8) / 2 of the height. -/
theorem idx_o3 : ∀ t : Fin cfg0.N, win0_3.index t (0 : Fin 5) = t.val / 8 ∧ win0_3.index t (1 : Fin 5) = (t.val % 8) / 2
    ∧ win0_3.index t (2 : Fin 5) = 0 ∧ win0_3.index t (3 : Fin 5) = 0 ∧ win0_3.index t (4 : Fin 5) = 0 :=
  (by decide +kernel : ∀ t : Fin grid0.N, _)

/-- Where element j of the quarter-bin block at point t sits in its array. -/
def bin3Idx (t : Fin cfg0.N) (j : S1x1x4x4x64.Idx) : S4x4x4x4x64.Idx := ((cfg0.win 3).blk t).view.emb j

theorem bin3Idx_val (t : Fin cfg0.N) (j : S1x1x4x4x64.Idx) :
    (bin3Idx t j 0).val = t.val / 8 ∧ (bin3Idx t j 1).val = (t.val % 8) / 2
    ∧ (bin3Idx t j 2).val = (j 2).val ∧ (bin3Idx t j 3).val = (j 3).val ∧ (bin3Idx t j 4).val = (j 4).val := by
  obtain ⟨e0, e1, e2, e3, e4⟩ := idx_o3 t
  have h0 : (j 0).val < 1 := (j 0).isLt
  have h1 : (j 1).val < 1 := (j 1).isLt
  refine ⟨?_, ?_, ?_, ?_, ?_⟩
  · show win0_3.index t (0 : Fin 5) * 1 + 1 * (j 0).val = _; rw [e0]; omega
  · show win0_3.index t (1 : Fin 5) * 1 + 1 * (j 1).val = _; rw [e1]; omega
  · show win0_3.index t (2 : Fin 5) * 4 + 1 * (j 2).val = _; rw [e2]; omega
  · show win0_3.index t (3 : Fin 5) * 4 + 1 * (j 3).val = _; rw [e3]; omega
  · show win0_3.index t (4 : Fin 5) * 64 + 1 * (j 4).val = _; rw [e4]; omega

/-- After the run every entry of the quarter-bin array is the maximum of the input over its box of side 16. -/
theorem final3 (c : Dev nD) (y : S4x4x4x4x64.Idx) :
    SupOf ((dats m 0 c).arrAt 3 cfg0.N y) (InBin 16 (y 0).val (y 1).val (y 2).val (y 3).val (y 4).val)
      (m ((c : Thread nD τ).loc main_arg0)) := by
  have hN : cfg0.N = 32 := N_0
  refine (dats m 0 c).arrAt_forall_of_cover 3
    (fun (i : S4x4x4x4x64.Idx) (v : EReal) =>
      SupOf v (InBin 16 (i 0).val (i 1).val (i 2).val (i 3).val (i 4).val) (m ((c : Thread nD τ).loc main_arg0))) ?_ ?_ y
  · intro t hf j
    have h1 : t.val % 2 = 1 := (flush0_3 t).mp hf
    obtain ⟨s0, s1, s2, s3, s4⟩ := bin3Idx_val t j
    show SupOf (o3At m c t.val t.isLt j) (InBin 16 (bin3Idx t j 0).val (bin3Idx t j 1).val (bin3Idx t j 2).val (bin3Idx t j 3).val (bin3Idx t j 4).val) _
    rw [s0, s1, s2, s3, s4]
    refine SupOf.congr (fun x => ?_) (o3At_sup m c t.val t.isLt j)
    unfold InBin
    exact ⟨fun ⟨a, b, d, r⟩ => ⟨a, b, r⟩, fun ⟨a, b, r⟩ => ⟨a, b, by omega, r⟩⟩
  · intro i
    have b0 : (i 0).val < 4 := (i 0).isLt
    have b1 : (i 1).val < 4 := (i 1).isLt
    have b2 : (i 2).val < 4 := (i 2).isLt
    have b3 : (i 3).val < 4 := (i 3).isLt
    have b4 : (i 4).val < 64 := (i 4).isLt
    have ht : 8 * (i 0).val + 2 * (i 1).val + 1 < cfg0.N := by rw [hN]; omega
    obtain ⟨e0, e1, e2, e3, e4⟩ := idx_o3 ⟨8 * (i 0).val + 2 * (i 1).val + 1, ht⟩
    refine ⟨⟨8 * (i 0).val + 2 * (i 1).val + 1, ht⟩, (flush0_3 _).mpr (by show (8 * (i 0).val + 2 * (i 1).val + 1) % 2 = 1; omega), ?_⟩
    show i ∈ ((View.whole main_v0_2).slice (win0_3.rect ⟨8 * (i 0).val + 2 * (i 1).val + 1, ht⟩)).set
    rw [View.set_slice_whole, Rect.mem_set_unit]
    intro a
    match a with
    | ⟨0, _⟩ => show win0_3.index _ (0 : Fin 5) * 1 ≤ (i 0).val ∧ (i 0).val < win0_3.index _ (0 : Fin 5) * 1 + 1; rw [e0]; dsimp only; omega
    | ⟨1, _⟩ => show win0_3.index _ (1 : Fin 5) * 1 ≤ (i 1).val ∧ (i 1).val < win0_3.index _ (1 : Fin 5) * 1 + 1; rw [e1]; dsimp only; omega
    | ⟨2, _⟩ => show win0_3.index _ (2 : Fin 5) * 4 ≤ (i 2).val ∧ (i 2).val < win0_3.index _ (2 : Fin 5) * 4 + 4; rw [e2]; omega
    | ⟨3, _⟩ => show win0_3.index _ (3 : Fin 5) * 4 ≤ (i 3).val ∧ (i 3).val < win0_3.index _ (3 : Fin 5) * 4 + 4; rw [e3]; omega
    | ⟨4, _⟩ => show win0_3.index _ (4 : Fin 5) * 64 ≤ (i 4).val ∧ (i 4).val < win0_3.index _ (4 : Fin 5) * 64 + 64; rw [e4]; omega

/-- The whole-volume window's block index over the grid: batch t / 8. -/
theorem idx_o1 : ∀ t : Fin cfg0.N, win0_1.index t (0 : Fin 5) = t.val / 8 ∧ win0_1.index t (1 : Fin 5) = 0
    ∧ win0_1.index t (2 : Fin 5) = 0 ∧ win0_1.index t (3 : Fin 5) = 0 ∧ win0_1.index t (4 : Fin 5) = 0 :=
  (by decide +kernel : ∀ t : Fin grid0.N, _)

/-- Where element j of the whole-volume block at point t sits in its array. -/
def bin1Idx (t : Fin cfg0.N) (j : S1x1x1x1x64.Idx) : S4x1x1x1x64.Idx := ((cfg0.win 1).blk t).view.emb j

theorem bin1Idx_val (t : Fin cfg0.N) (j : S1x1x1x1x64.Idx) :
    (bin1Idx t j 0).val = t.val / 8 ∧ (bin1Idx t j 1).val = 0
    ∧ (bin1Idx t j 2).val = 0 ∧ (bin1Idx t j 3).val = 0 ∧ (bin1Idx t j 4).val = (j 4).val := by
  obtain ⟨e0, e1, e2, e3, e4⟩ := idx_o1 t
  have h0 : (j 0).val < 1 := (j 0).isLt
  have h1 : (j 1).val < 1 := (j 1).isLt
  have h2 : (j 2).val < 1 := (j 2).isLt
  have h3 : (j 3).val < 1 := (j 3).isLt
  refine ⟨?_, ?_, ?_, ?_, ?_⟩
  · show win0_1.index t (0 : Fin 5) * 1 + 1 * (j 0).val = _; rw [e0]; omega
  · show win0_1.index t (1 : Fin 5) * 1 + 1 * (j 1).val = _; rw [e1]; omega
  · show win0_1.index t (2 : Fin 5) * 1 + 1 * (j 2).val = _; rw [e2]; omega
  · show win0_1.index t (3 : Fin 5) * 1 + 1 * (j 3).val = _; rw [e3]; omega
  · show win0_1.index t (4 : Fin 5) * 64 + 1 * (j 4).val = _; rw [e4]; omega

/-- After the run every entry of the whole-volume array is the maximum of the input over its batch and channel. -/
theorem final1 (c : Dev nD) (y : S4x1x1x1x64.Idx) :
    SupOf ((dats m 0 c).arrAt 1 cfg0.N y) (InBin 64 (y 0).val (y 1).val (y 2).val (y 3).val (y 4).val)
      (m ((c : Thread nD τ).loc main_arg0)) := by
  have hN : cfg0.N = 32 := N_0
  refine (dats m 0 c).arrAt_forall_of_cover 1
    (fun (i : S4x1x1x1x64.Idx) (v : EReal) =>
      SupOf v (InBin 64 (i 0).val (i 1).val (i 2).val (i 3).val (i 4).val) (m ((c : Thread nD τ).loc main_arg0))) ?_ ?_ y
  · intro t hf j
    have h7 : t.val % 8 = 7 := (flush0_1 t).mp hf
    obtain ⟨s0, s1, s2, s3, s4⟩ := bin1Idx_val t j
    show SupOf (o1At m c t.val t.isLt j) (InBin 64 (bin1Idx t j 0).val (bin1Idx t j 1).val (bin1Idx t j 2).val (bin1Idx t j 3).val (bin1Idx t j 4).val) _
    rw [s0, s1, s2, s3, s4]
    refine SupOf.congr (fun x => ?_) (o1At_sup m c t.val t.isLt j)
    have x1 : (x 1).val < 64 := (x 1).isLt
    have x2 : (x 2).val < 64 := (x 2).isLt
    have x3 : (x 3).val < 64 := (x 3).isLt
    unfold InBin
    exact ⟨fun ⟨a, b, r⟩ => ⟨a, by omega, by omega, by omega, r⟩, fun ⟨a, b, d, e, r⟩ => ⟨a, by omega, r⟩⟩
  · intro i
    have b0 : (i 0).val < 4 := (i 0).isLt
    have b1 : (i 1).val < 1 := (i 1).isLt
    have b2 : (i 2).val < 1 := (i 2).isLt
    have b3 : (i 3).val < 1 := (i 3).isLt
    have b4 : (i 4).val < 64 := (i 4).isLt
    have ht : 8 * (i 0).val + 7 < cfg0.N := by rw [hN]; omega
    obtain ⟨e0, e1, e2, e3, e4⟩ := idx_o1 ⟨8 * (i 0).val + 7, ht⟩
    refine ⟨⟨8 * (i 0).val + 7, ht⟩, (flush0_1 _).mpr (by show (8 * (i 0).val + 7) % 8 = 7; omega), ?_⟩
    show i ∈ ((View.whole main_v0_0).slice (win0_1.rect ⟨8 * (i 0).val + 7, ht⟩)).set
    rw [View.set_slice_whole, Rect.mem_set_unit]
    intro a
    match a with
    | ⟨0, _⟩ => show win0_1.index _ (0 : Fin 5) * 1 ≤ (i 0).val ∧ (i 0).val < win0_1.index _ (0 : Fin 5) * 1 + 1; rw [e0]; dsimp only; omega
    | ⟨1, _⟩ => show win0_1.index _ (1 : Fin 5) * 1 ≤ (i 1).val ∧ (i 1).val < win0_1.index _ (1 : Fin 5) * 1 + 1; rw [e1]; omega
    | ⟨2, _⟩ => show win0_1.index _ (2 : Fin 5) * 1 ≤ (i 2).val ∧ (i 2).val < win0_1.index _ (2 : Fin 5) * 1 + 1; rw [e2]; omega
    | ⟨3, _⟩ => show win0_1.index _ (3 : Fin 5) * 1 ≤ (i 3).val ∧ (i 3).val < win0_1.index _ (3 : Fin 5) * 1 + 1; rw [e3]; omega
    | ⟨4, _⟩ => show win0_1.index _ (4 : Fin 5) * 64 ≤ (i 4).val ∧ (i 4).val < win0_1.index _ (4 : Fin 5) * 64 + 64; rw [e4]; omega

end Cert.KernelIdeal.Hand

end
-- ==== Proof.RefValue.lean ====
/-
  The reference program's run and what its three pooled arrays are.

  The reference reshapes the input volume `X : [4, 64, 64, 64, 64]` (batch, height, width, depth, channel) three times, to
  `[4, p, 64/p, p, 64/p, p, 64/p, 64]` for `p = 1, 2, 4`, reduces each by maximum from `-∞` over the three inner axes
  (2, 4, 6), flattens each result `[4, p, p, p, 64]` to one row per batch, and lays the three side by side. Its thirteen
  host operations each write their own buffer, so the result buffer is read back through the line operation by
  operation (`run`, for any float values). At the ideal values a reduction by maximum from `-∞` is the maximum over the
  set of indices reduced, and the reshape only renames positions (equal row-major position), so every entry of the
  `p`-th reduction is the maximum of the volume over one box of side `64/p` at a fixed batch and channel
  (`R1_sup`, `R2_sup`, `R3_sup`), stated by upper bounds (`Cert.Pool.SupOf`).
-/
import proofs.«177847_j73418170957951_1_alg».proof.Proof.Gen.ReferenceIdeal
import proofs.«177847_j73418170957951_1_alg».proof.Proof.PoolSpec
import proofs.«177847_j73418170957951_1_alg».proof.Proof.LibNary3
import Idealize.ShloMosaic.Lib.StableHlo.Run
import Idealize.ShloMosaic.PureOps.Ideal.Laws
import Idealize.ShloMosaic.Lib.ValueIdx
import Idealize.ShloMosaic.Lib.Pipeline.Value

noncomputable section

namespace Cert.ReferenceIdeal.Hand

open Cert.ReferenceIdeal Cert.ReferenceIdeal.Gen Cert.Pool Idealize.ShloMosaic Idealize.ShloMosaic.TcCoe Idealize.SL.Sem
  Idealize.ShloMosaic.StableHlo

section Run

variable {F : FTy → Type} [FloatOps F]

/-- The first pooled array: the whole volume as one bin per batch and channel. -/
def R1 (X : FVec F S4x64x64x64x64 .f32) : FVec F S4x1x1x1x64 .f32 :=
  Host.reduce FloatOps.maximumf (shapeCast S4x1x64x1x64x1x64x64 X shapeCasts_S4x64x64x64x64_S4x1x64x1x64x1x64x64)
    (constant S_ .f32 0xFF800000#32) reducesTo_S4x1x64x1x64x1x64x64_S4x1x1x1x64_d2_4_6 h_S_

/-- The second pooled array: two bins of side 32 along each of height, width and depth. -/
def R2 (X : FVec F S4x64x64x64x64 .f32) : FVec F S4x2x2x2x64 .f32 :=
  Host.reduce FloatOps.maximumf (shapeCast S4x2x32x2x32x2x32x64 X shapeCasts_S4x64x64x64x64_S4x2x32x2x32x2x32x64)
    (constant S_ .f32 0xFF800000#32) reducesTo_S4x2x32x2x32x2x32x64_S4x2x2x2x64_d2_4_6 h_S_

/-- The third pooled array: four bins of side 16 along each of height, width and depth. -/
def R3 (X : FVec F S4x64x64x64x64 .f32) : FVec F S4x4x4x4x64 .f32 :=
  Host.reduce FloatOps.maximumf (shapeCast S4x4x16x4x16x4x16x64 X shapeCasts_S4x64x64x64x64_S4x4x16x4x16x4x16x64)
    (constant S_ .f32 0xFF800000#32) reducesTo_S4x4x16x4x16x4x16x64_S4x4x4x4x64_d2_4_6 h_S_

/-- The result: the three pooled arrays, each flattened to one row per batch, side by side. -/
def rtail (a1 : FVec F S4x1x1x1x64 .f32) (a2 : FVec F S4x2x2x2x64 .f32) (a3 : FVec F S4x4x4x4x64 .f32) :
    FVec F S4x4672 .f32 :=
  concatenate S4x4672 1 [⟨S4x64, shapeCast S4x64 a1 shapeCasts_S4x1x1x1x64_S4x64⟩,
    ⟨S4x512, shapeCast S4x512 a2 shapeCasts_S4x2x2x2x64_S4x512⟩,
    ⟨S4x4096, shapeCast S4x4096 a3 shapeCasts_S4x4x4x4x64_S4x4096⟩] concatenates_S4x64_S4x512_S4x4096_S4x4672_d1

/-- @main's first 12 operations, in order: three times a reshape of the argument, the constant, the reduction, and
    the reshape of its result. -/
abbrev ops12 : List (HloOp τ sig (Elt F)) :=
  [ reshape main_arg0 main_v0 rfl shapeCasts_S4x64x64x64x64_S4x1x64x1x64x1x64x64,
    nullary main_cst (constant S_ .f32 0xFF800000#32),
    binary main_v0 main_cst main_v1 ((fun x v => Host.reduce FloatOps.maximumf x v reducesTo_S4x1x64x1x64x1x64x64_S4x1x1x1x64_d2_4_6 h_S_) : (⟨S4x1x64x1x64x1x64x64, .f32⟩ : BufTy).Contents (Elt F) → (⟨S_, .f32⟩ : BufTy).Contents (Elt F) → (⟨S4x1x1x1x64, .f32⟩ : BufTy).Contents (Elt F)),
    reshape main_v1 main_v2 rfl shapeCasts_S4x1x1x1x64_S4x64,
    reshape main_arg0 main_v3 rfl shapeCasts_S4x64x64x64x64_S4x2x32x2x32x2x32x64,
    nullary main_cst_0 (constant S_ .f32 0xFF800000#32),
    binary main_v3 main_cst_0 main_v4 ((fun x v => Host.reduce FloatOps.maximumf x v reducesTo_S4x2x32x2x32x2x32x64_S4x2x2x2x64_d2_4_6 h_S_) : (⟨S4x2x32x2x32x2x32x64, .f32⟩ : BufTy).Contents (Elt F) → (⟨S_, .f32⟩ : BufTy).Contents (Elt F) → (⟨S4x2x2x2x64, .f32⟩ : BufTy).Contents (Elt F)),
    reshape main_v4 main_v5 rfl shapeCasts_S4x2x2x2x64_S4x512,
    reshape main_arg0 main_v6 rfl shapeCasts_S4x64x64x64x64_S4x4x16x4x16x4x16x64,
    nullary main_cst_1 (constant S_ .f32 0xFF800000#32),
    binary main_v6 main_cst_1 main_v7 ((fun x v => Host.reduce FloatOps.maximumf x v reducesTo_S4x4x16x4x16x4x16x64_S4x4x4x4x64_d2_4_6 h_S_) : (⟨S4x4x16x4x16x4x16x64, .f32⟩ : BufTy).Contents (Elt F) → (⟨S_, .f32⟩ : BufTy).Contents (Elt F) → (⟨S4x4x4x4x64, .f32⟩ : BufTy).Contents (Elt F)),
    reshape main_v7 main_v8 rfl shapeCasts_S4x4x4x4x64_S4x4096 ]

/-- @main's last operation: the concatenation of the three flattened arrays. -/
abbrev op13 : HloOp τ sig (Elt F) :=
  nary ![main_v2, main_v5, main_v8] main_v9 (fun u => concatenate S4x4672 1 [⟨S4x64, u 0⟩, ⟨S4x512, u 1⟩, ⟨S4x4096, u 2⟩] concatenates_S4x64_S4x512_S4x4096_S4x4672_d1)

/-- @main's 13 operations, in order. -/
abbrev ops : List (HloOp τ sig (Elt F)) := ops12 ++ [op13]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  show List.Forall _ [_, _, _, _, _, _, _, _, _, _, _, _, _] from
  ⟨reshape_bufs_sub .., nullary_bufs_sub .., binary_bufs_sub .., reshape_bufs_sub .., reshape_bufs_sub ..,
    nullary_bufs_sub .., binary_bufs_sub .., reshape_bufs_sub .., reshape_bufs_sub .., nullary_bufs_sub ..,
    binary_bufs_sub .., reshape_bufs_sub .., nary_bufs_sub ..⟩

/-- The line run from `V` is its last operation run from where the first twelve leave the buffers. -/
theorem after_ops (V : Valuation τ sig (Elt F)) : after ops V = op13.result (after ops12 V) := rfl

/-- Reads one buffer back through the first twelve operations, last operation first: each operation writes its own
    result buffer and no other. -/
macro "read_back" : tactic =>
  `(tactic| (simp only [after_cons, after_nil]
             repeat (first
               | rw [nullary_result] | rw [binary_result] | rw [reshape_result]
               | (rw [nullary_result_ne]; rotate_left; decide)
               | (rw [binary_result_ne]; rotate_left; decide)
               | (rw [reshape_result_ne]; rotate_left; decide))))

/-- After the first twelve operations the first flattened array is the first reduction of the argument. -/
theorem after12_v2 (V : Valuation τ sig (Elt F)) :
    after ops12 V (Proc.devRef .tc main_v2)
      = shapeCast S4x64 (R1 (V (Proc.devRef .tc main_arg0))) shapeCasts_S4x1x1x1x64_S4x64 := by
  read_back
  rfl

/-- The same for the second flattened array and the second reduction. -/
theorem after12_v5 (V : Valuation τ sig (Elt F)) :
    after ops12 V (Proc.devRef .tc main_v5)
      = shapeCast S4x512 (R2 (V (Proc.devRef .tc main_arg0))) shapeCasts_S4x2x2x2x64_S4x512 := by
  read_back
  rfl

/-- The same for the third flattened array and the third reduction. -/
theorem after12_v8 (V : Valuation τ sig (Elt F)) :
    after ops12 V (Proc.devRef .tc main_v8)
      = shapeCast S4x4096 (R3 (V (Proc.devRef .tc main_arg0))) shapeCasts_S4x4x4x4x64_S4x4096 := by
  read_back
  rfl

/-- The last operation leaves, in the result buffer, the three flattened arrays it finds laid side by side. -/
theorem op13_result (W : Valuation τ sig (Elt F)) :
    (op13 (F := F)).result W (Proc.devRef .tc main_v9)
      = concatenate S4x4672 1 [⟨S4x64, W (Proc.devRef .tc main_v2)⟩, ⟨S4x512, W (Proc.devRef .tc main_v5)⟩,
          ⟨S4x4096, W (Proc.devRef .tc main_v8)⟩] concatenates_S4x64_S4x512_S4x4096_S4x4672_d1 := by
  rw [nary3_result]
  rfl

/-- What the result buffer holds once the thirteen operations have run from any contents `V`: the three reductions of
    the argument's contents, flattened and laid side by side. -/
theorem after_v9 (V : Valuation τ sig (Elt F)) :
    after ops V (Proc.devRef .tc main_v9)
      = rtail (R1 (V (Proc.devRef .tc main_arg0))) (R2 (V (Proc.devRef .tc main_arg0))) (R3 (V (Proc.devRef .tc main_arg0))) := by
  rw [after_ops, op13_result, after12_v2, after12_v5, after12_v8]
  rfl

/-- No operation writes the argument's buffer. -/
theorem after_arg0 (V : Valuation τ sig (Elt F)) :
    after ops V (Proc.devRef .tc main_arg0) = V (Proc.devRef .tc main_arg0) := by
  rw [after_ops]
  unfold op13
  rw [nary_result_ne]; rotate_left; decide
  read_back

/-- On every device, for any float values, from any memory with zero counters: every weakly fair execution of @main
    terminates with the result buffer at the three pooled arrays of the argument's launch contents laid side by side,
    and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v9)
          = rtail (R1 (m ((c.tc : Thread nD τ).loc main_arg0))) (R2 (m ((c.tc : Thread nD τ).loc main_arg0)))
              (R3 (m ((c.tc : Thread nD τ).loc main_arg0)))
        ∧ r.2.mem ((c.tc : Thread nD τ).loc main_arg0) = m ((c.tc : Thread nD τ).loc main_arg0) :=
  (θ_run defs _ _).mono (fun _ h c => ⟨(h c main_v9).trans (after_v9 _), (h c main_arg0).trans (after_arg0 _)⟩)
    (run_seq scopedRefs_eq scopedSems_eq defs main (fun _ => ops) main_eq (fun _ => ops_sub) m ρ)

end Run

section Sup

/-- Rank 8: the row-major position as one sum of products. -/
theorem rowMajor_val_eight {d : Fin 8 → Nat} (i : (⟨8, d⟩ : Shape).Idx) :
    ((⟨8, d⟩ : Shape).rowMajor i).val
      = (((((((i 0).val * d 1 + (i 1).val) * d 2 + (i 2).val) * d 3 + (i 3).val) * d 4 + (i 4).val) * d 5
          + (i 5).val) * d 6 + (i 6).val) * d 7 + (i 7).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- A rank-8 index from its coordinates. -/
abbrev ix8 {n0 n1 n2 n3 n4 n5 n6 n7 : Nat} (a : Fin n0) (b : Fin n1) (c : Fin n2) (d : Fin n3) (e : Fin n4) (f : Fin n5)
    (g : Fin n6) (h : Fin n7) : (⟨8, ![n0, n1, n2, n3, n4, n5, n6, n7]⟩ : Shape).Idx :=
  fun q => match q with
    | ⟨0, _⟩ => a | ⟨1, _⟩ => b | ⟨2, _⟩ => c | ⟨3, _⟩ => d | ⟨4, _⟩ => e | ⟨5, _⟩ => f | ⟨6, _⟩ => g | ⟨7, _⟩ => h

/-- A reduction by maximum from `-∞` of a re-indexed volume, read at the ideal values at one result index `y`: the
    maximum of the volume over the positions whose re-indexed index drops to `y`. The reduction folds `max` from `⊥`
    over the set of indices that drop to `y` (in any order: `max` commutes and associates), which is the maximum over
    that set; the re-indexed volume is the volume read through the index map, so the maximum is over the image. -/
theorem reduce_sup {s t : Shape} {axes : List (Fin s.rank)} (X : SX.Idx → EReal) (hc : SX.ShapeCasts s)
    (hr : s.ReducesTo axes t) (y : t.Idx) :
    SupOf (Host.reduce (FloatOps.maximumf (F := Ideal) (φ := .f32)) (shapeCast s X hc)
        (constant (F := Ideal) S_ .f32 0xFF800000#32) hr h_S_ y)
      (fun x => ∃ k : s.Idx, hr.drop k = y ∧ Shape.reshapeEquiv hc k = x) X := by
  rw [Host.reduce_eq_fold]
  have h0 : constant (F := Ideal) S_ .f32 0xFF800000#32 (Shape.Idx.first h_S_) = (⊥ : EReal) := ofBits_neg_inf
  rw [h0]
  have := SupOf.map (f := X) (Shape.reshapeEquiv hc) (SupOf.fold (Finset.univ.filter fun i : s.Idx => hr.drop i = y) (X ∘ Shape.reshapeEquiv hc))
  refine SupOf.congr (fun x => ?_) this
  simp only [Finset.mem_filter, Finset.mem_univ, true_and]

/-- Bins of side 64. Position `(b, i, h, j, w, k, d, c)` of the 8-axis shape `[4, 1, 64, 1, 64, 1, 64, 64]` has the row-major
    position of `(b, 64 i + h, 64 j + w, 64 k + d, c)` in the volume, and the reduction over axes 2, 4, 6 sends it to
    `(b, i, j, k, c)`. So the positions of the volume whose 8-axis index is sent to `y` are those of batch `y 0` and
    channel `y 4` whose height, width and depth, divided by 64, are `y 1`, `y 2`, `y 3`: one way the coordinates are read off
    the equal row-major positions, the other way the 8-axis index is built from quotients and remainders. -/
theorem bin1_iff (x : SX.Idx) (y : S4x1x1x1x64.Idx) :
    (∃ k : S4x1x64x1x64x1x64x64.Idx, reducesTo_S4x1x64x1x64x1x64x64_S4x1x1x1x64_d2_4_6.drop k = y ∧ Shape.reshapeEquiv shapeCasts_S4x64x64x64x64_S4x1x64x1x64x1x64x64 k = x)
      ↔ InBin 64 (y 0).val (y 1).val (y 2).val (y 3).val (y 4).val x := by
  have x0 : (x 0).val < 4 := (x 0).isLt
  have x1 : (x 1).val < 64 := (x 1).isLt
  have x2 : (x 2).val < 64 := (x 2).isLt
  have x3 : (x 3).val < 64 := (x 3).isLt
  have x4 : (x 4).val < 64 := (x 4).isLt
  unfold InBin
  constructor
  · rintro ⟨k, hk, hx⟩
    -- the two indices have one row-major position
    have e := Shape.rowMajor_reshapeEquiv shapeCasts_S4x64x64x64x64_S4x1x64x1x64x1x64x64 k
    rw [hx, Shape.rowMajor_val_five, rowMajor_val_eight] at e
    have e' : ((((x 0).val * 64 + (x 1).val) * 64 + (x 2).val) * 64 + (x 3).val) * 64 + (x 4).val
        = (((((((k 0).val * 1 + (k 1).val) * 64 + (k 2).val) * 1 + (k 3).val) * 64 + (k 4).val) * 1 + (k 5).val) * 64
            + (k 6).val) * 64 + (k 7).val := e
    -- the result index keeps the coordinates on axes 0, 1, 3, 5, 7
    have y0 : (y 0).val = (k 0).val := by rw [← hk]; exact reducesTo_S4x1x64x1x64x1x64x64_S4x1x1x1x64_d2_4_6.drop_apply_val_of_eq k 0 0
    have y1 : (y 1).val = (k 1).val := by rw [← hk]; exact reducesTo_S4x1x64x1x64x1x64x64_S4x1x1x1x64_d2_4_6.drop_apply_val_of_eq k 1 1
    have y2 : (y 2).val = (k 3).val := by rw [← hk]; exact reducesTo_S4x1x64x1x64x1x64x64_S4x1x1x1x64_d2_4_6.drop_apply_val_of_eq k 2 3
    have y3 : (y 3).val = (k 5).val := by rw [← hk]; exact reducesTo_S4x1x64x1x64x1x64x64_S4x1x1x1x64_d2_4_6.drop_apply_val_of_eq k 3 5
    have y4 : (y 4).val = (k 7).val := by rw [← hk]; exact reducesTo_S4x1x64x1x64x1x64x64_S4x1x1x1x64_d2_4_6.drop_apply_val_of_eq k 4 7
    have k0 : (k 0).val < 4 := (k 0).isLt
    have k1 : (k 1).val < 1 := (k 1).isLt
    have k2 : (k 2).val < 64 := (k 2).isLt
    have k3 : (k 3).val < 1 := (k 3).isLt
    have k4 : (k 4).val < 64 := (k 4).isLt
    have k5 : (k 5).val < 1 := (k 5).isLt
    have k6 : (k 6).val < 64 := (k 6).isLt
    have k7 : (k 7).val < 64 := (k 7).isLt
    refine ⟨?_, ?_, ?_, ?_, ?_⟩ <;> omega
  · rintro ⟨h0, h1, h2, h3, h4⟩
    refine ⟨ix8 (n0 := 4) (n1 := 1) (n2 := 64) (n3 := 1) (n4 := 64) (n5 := 1) (n6 := 64) (n7 := 64)
      ⟨(x 0).val, x0⟩ ⟨(x 1).val / 64, by omega⟩ ⟨(x 1).val % 64, by omega⟩ ⟨(x 2).val / 64, by omega⟩
      ⟨(x 2).val % 64, by omega⟩ ⟨(x 3).val / 64, by omega⟩ ⟨(x 3).val % 64, by omega⟩ ⟨(x 4).val, x4⟩, ?_, ?_⟩
    · funext b
      apply Fin.ext
      match b with
      | ⟨0, _⟩ => exact (reducesTo_S4x1x64x1x64x1x64x64_S4x1x1x1x64_d2_4_6.drop_apply_val_of_eq _ 0 0).trans h0
      | ⟨1, _⟩ => exact (reducesTo_S4x1x64x1x64x1x64x64_S4x1x1x1x64_d2_4_6.drop_apply_val_of_eq _ 1 1).trans h1
      | ⟨2, _⟩ => exact (reducesTo_S4x1x64x1x64x1x64x64_S4x1x1x1x64_d2_4_6.drop_apply_val_of_eq _ 2 3).trans h2
      | ⟨3, _⟩ => exact (reducesTo_S4x1x64x1x64x1x64x64_S4x1x1x1x64_d2_4_6.drop_apply_val_of_eq _ 3 5).trans h3
      | ⟨4, _⟩ => exact (reducesTo_S4x1x64x1x64x1x64x64_S4x1x1x1x64_d2_4_6.drop_apply_val_of_eq _ 4 7).trans h4
    · apply Shape.reshapeEquiv_eq_of_rowMajor
      rw [Shape.rowMajor_val_five, rowMajor_val_eight]
      show ((((x 0).val * 64 + (x 1).val) * 64 + (x 2).val) * 64 + (x 3).val) * 64 + (x 4).val
        = (((((((x 0).val * 1 + (x 1).val / 64) * 64 + (x 1).val % 64) * 1 + (x 2).val / 64) * 64 + (x 2).val % 64) * 1
            + (x 3).val / 64) * 64 + (x 3).val % 64) * 64 + (x 4).val
      omega

/-- Bins of side 32. Position `(b, i, h, j, w, k, d, c)` of the 8-axis shape `[4, 2, 32, 2, 32, 2, 32, 64]` has the row-major
    position of `(b, 32 i + h, 32 j + w, 32 k + d, c)` in the volume, and the reduction over axes 2, 4, 6 sends it to
    `(b, i, j, k, c)`. So the positions of the volume whose 8-axis index is sent to `y` are those of batch `y 0` and
    channel `y 4` whose height, width and depth, divided by 32, are `y 1`, `y 2`, `y 3`: one way the coordinates are read off
    the equal row-major positions, the other way the 8-axis index is built from quotients and remainders. -/
theorem bin2_iff (x : SX.Idx) (y : S4x2x2x2x64.Idx) :
    (∃ k : S4x2x32x2x32x2x32x64.Idx, reducesTo_S4x2x32x2x32x2x32x64_S4x2x2x2x64_d2_4_6.drop k = y ∧ Shape.reshapeEquiv shapeCasts_S4x64x64x64x64_S4x2x32x2x32x2x32x64 k = x)
      ↔ InBin 32 (y 0).val (y 1).val (y 2).val (y 3).val (y 4).val x := by
  have x0 : (x 0).val < 4 := (x 0).isLt
  have x1 : (x 1).val < 64 := (x 1).isLt
  have x2 : (x 2).val < 64 := (x 2).isLt
  have x3 : (x 3).val < 64 := (x 3).isLt
  have x4 : (x 4).val < 64 := (x 4).isLt
  unfold InBin
  constructor
  · rintro ⟨k, hk, hx⟩
    -- the two indices have one row-major position
    have e := Shape.rowMajor_reshapeEquiv shapeCasts_S4x64x64x64x64_S4x2x32x2x32x2x32x64 k
    rw [hx, Shape.rowMajor_val_five, rowMajor_val_eight] at e
    have e' : ((((x 0).val * 64 + (x 1).val) * 64 + (x 2).val) * 64 + (x 3).val) * 64 + (x 4).val
        = (((((((k 0).val * 2 + (k 1).val) * 32 + (k 2).val) * 2 + (k 3).val) * 32 + (k 4).val) * 2 + (k 5).val) * 32
            + (k 6).val) * 64 + (k 7).val := e
    -- the result index keeps the coordinates on axes 0, 1, 3, 5, 7
    have y0 : (y 0).val = (k 0).val := by rw [← hk]; exact reducesTo_S4x2x32x2x32x2x32x64_S4x2x2x2x64_d2_4_6.drop_apply_val_of_eq k 0 0
    have y1 : (y 1).val = (k 1).val := by rw [← hk]; exact reducesTo_S4x2x32x2x32x2x32x64_S4x2x2x2x64_d2_4_6.drop_apply_val_of_eq k 1 1
    have y2 : (y 2).val = (k 3).val := by rw [← hk]; exact reducesTo_S4x2x32x2x32x2x32x64_S4x2x2x2x64_d2_4_6.drop_apply_val_of_eq k 2 3
    have y3 : (y 3).val = (k 5).val := by rw [← hk]; exact reducesTo_S4x2x32x2x32x2x32x64_S4x2x2x2x64_d2_4_6.drop_apply_val_of_eq k 3 5
    have y4 : (y 4).val = (k 7).val := by rw [← hk]; exact reducesTo_S4x2x32x2x32x2x32x64_S4x2x2x2x64_d2_4_6.drop_apply_val_of_eq k 4 7
    have k0 : (k 0).val < 4 := (k 0).isLt
    have k1 : (k 1).val < 2 := (k 1).isLt
    have k2 : (k 2).val < 32 := (k 2).isLt
    have k3 : (k 3).val < 2 := (k 3).isLt
    have k4 : (k 4).val < 32 := (k 4).isLt
    have k5 : (k 5).val < 2 := (k 5).isLt
    have k6 : (k 6).val < 32 := (k 6).isLt
    have k7 : (k 7).val < 64 := (k 7).isLt
    refine ⟨?_, ?_, ?_, ?_, ?_⟩ <;> omega
  · rintro ⟨h0, h1, h2, h3, h4⟩
    refine ⟨ix8 (n0 := 4) (n1 := 2) (n2 := 32) (n3 := 2) (n4 := 32) (n5 := 2) (n6 := 32) (n7 := 64)
      ⟨(x 0).val, x0⟩ ⟨(x 1).val / 32, by omega⟩ ⟨(x 1).val % 32, by omega⟩ ⟨(x 2).val / 32, by omega⟩
      ⟨(x 2).val % 32, by omega⟩ ⟨(x 3).val / 32, by omega⟩ ⟨(x 3).val % 32, by omega⟩ ⟨(x 4).val, x4⟩, ?_, ?_⟩
    · funext b
      apply Fin.ext
      match b with
      | ⟨0, _⟩ => exact (reducesTo_S4x2x32x2x32x2x32x64_S4x2x2x2x64_d2_4_6.drop_apply_val_of_eq _ 0 0).trans h0
      | ⟨1, _⟩ => exact (reducesTo_S4x2x32x2x32x2x32x64_S4x2x2x2x64_d2_4_6.drop_apply_val_of_eq _ 1 1).trans h1
      | ⟨2, _⟩ => exact (reducesTo_S4x2x32x2x32x2x32x64_S4x2x2x2x64_d2_4_6.drop_apply_val_of_eq _ 2 3).trans h2
      | ⟨3, _⟩ => exact (reducesTo_S4x2x32x2x32x2x32x64_S4x2x2x2x64_d2_4_6.drop_apply_val_of_eq _ 3 5).trans h3
      | ⟨4, _⟩ => exact (reducesTo_S4x2x32x2x32x2x32x64_S4x2x2x2x64_d2_4_6.drop_apply_val_of_eq _ 4 7).trans h4
    · apply Shape.reshapeEquiv_eq_of_rowMajor
      rw [Shape.rowMajor_val_five, rowMajor_val_eight]
      show ((((x 0).val * 64 + (x 1).val) * 64 + (x 2).val) * 64 + (x 3).val) * 64 + (x 4).val
        = (((((((x 0).val * 2 + (x 1).val / 32) * 32 + (x 1).val % 32) * 2 + (x 2).val / 32) * 32 + (x 2).val % 32) * 2
            + (x 3).val / 32) * 32 + (x 3).val % 32) * 64 + (x 4).val
      omega

/-- Bins of side 16. Position `(b, i, h, j, w, k, d, c)` of the 8-axis shape `[4, 4, 16, 4, 16, 4, 16, 64]` has the row-major
    position of `(b, 16 i + h, 16 j + w, 16 k + d, c)` in the volume, and the reduction over axes 2, 4, 6 sends it to
    `(b, i, j, k, c)`. So the positions of the volume whose 8-axis index is sent to `y` are those of batch `y 0` and
    channel `y 4` whose height, width and depth, divided by 16, are `y 1`, `y 2`, `y 3`: one way the coordinates are read off
    the equal row-major positions, the other way the 8-axis index is built from quotients and remainders. -/
theorem bin3_iff (x : SX.Idx) (y : S4x4x4x4x64.Idx) :
    (∃ k : S4x4x16x4x16x4x16x64.Idx, reducesTo_S4x4x16x4x16x4x16x64_S4x4x4x4x64_d2_4_6.drop k = y ∧ Shape.reshapeEquiv shapeCasts_S4x64x64x64x64_S4x4x16x4x16x4x16x64 k = x)
      ↔ InBin 16 (y 0).val (y 1).val (y 2).val (y 3).val (y 4).val x := by
  have x0 : (x 0).val < 4 := (x 0).isLt
  have x1 : (x 1).val < 64 := (x 1).isLt
  have x2 : (x 2).val < 64 := (x 2).isLt
  have x3 : (x 3).val < 64 := (x 3).isLt
  have x4 : (x 4).val < 64 := (x 4).isLt
  unfold InBin
  constructor
  · rintro ⟨k, hk, hx⟩
    -- the two indices have one row-major position
    have e := Shape.rowMajor_reshapeEquiv shapeCasts_S4x64x64x64x64_S4x4x16x4x16x4x16x64 k
    rw [hx, Shape.rowMajor_val_five, rowMajor_val_eight] at e
    have e' : ((((x 0).val * 64 + (x 1).val) * 64 + (x 2).val) * 64 + (x 3).val) * 64 + (x 4).val
        = (((((((k 0).val * 4 + (k 1).val) * 16 + (k 2).val) * 4 + (k 3).val) * 16 + (k 4).val) * 4 + (k 5).val) * 16
            + (k 6).val) * 64 + (k 7).val := e
    -- the result index keeps the coordinates on axes 0, 1, 3, 5, 7
    have y0 : (y 0).val = (k 0).val := by rw [← hk]; exact reducesTo_S4x4x16x4x16x4x16x64_S4x4x4x4x64_d2_4_6.drop_apply_val_of_eq k 0 0
    have y1 : (y 1).val = (k 1).val := by rw [← hk]; exact reducesTo_S4x4x16x4x16x4x16x64_S4x4x4x4x64_d2_4_6.drop_apply_val_of_eq k 1 1
    have y2 : (y 2).val = (k 3).val := by rw [← hk]; exact reducesTo_S4x4x16x4x16x4x16x64_S4x4x4x4x64_d2_4_6.drop_apply_val_of_eq k 2 3
    have y3 : (y 3).val = (k 5).val := by rw [← hk]; exact reducesTo_S4x4x16x4x16x4x16x64_S4x4x4x4x64_d2_4_6.drop_apply_val_of_eq k 3 5
    have y4 : (y 4).val = (k 7).val := by rw [← hk]; exact reducesTo_S4x4x16x4x16x4x16x64_S4x4x4x4x64_d2_4_6.drop_apply_val_of_eq k 4 7
    have k0 : (k 0).val < 4 := (k 0).isLt
    have k1 : (k 1).val < 4 := (k 1).isLt
    have k2 : (k 2).val < 16 := (k 2).isLt
    have k3 : (k 3).val < 4 := (k 3).isLt
    have k4 : (k 4).val < 16 := (k 4).isLt
    have k5 : (k 5).val < 4 := (k 5).isLt
    have k6 : (k 6).val < 16 := (k 6).isLt
    have k7 : (k 7).val < 64 := (k 7).isLt
    refine ⟨?_, ?_, ?_, ?_, ?_⟩ <;> omega
  · rintro ⟨h0, h1, h2, h3, h4⟩
    refine ⟨ix8 (n0 := 4) (n1 := 4) (n2 := 16) (n3 := 4) (n4 := 16) (n5 := 4) (n6 := 16) (n7 := 64)
      ⟨(x 0).val, x0⟩ ⟨(x 1).val / 16, by omega⟩ ⟨(x 1).val % 16, by omega⟩ ⟨(x 2).val / 16, by omega⟩
      ⟨(x 2).val % 16, by omega⟩ ⟨(x 3).val / 16, by omega⟩ ⟨(x 3).val % 16, by omega⟩ ⟨(x 4).val, x4⟩, ?_, ?_⟩
    · funext b
      apply Fin.ext
      match b with
      | ⟨0, _⟩ => exact (reducesTo_S4x4x16x4x16x4x16x64_S4x4x4x4x64_d2_4_6.drop_apply_val_of_eq _ 0 0).trans h0
      | ⟨1, _⟩ => exact (reducesTo_S4x4x16x4x16x4x16x64_S4x4x4x4x64_d2_4_6.drop_apply_val_of_eq _ 1 1).trans h1
      | ⟨2, _⟩ => exact (reducesTo_S4x4x16x4x16x4x16x64_S4x4x4x4x64_d2_4_6.drop_apply_val_of_eq _ 2 3).trans h2
      | ⟨3, _⟩ => exact (reducesTo_S4x4x16x4x16x4x16x64_S4x4x4x4x64_d2_4_6.drop_apply_val_of_eq _ 3 5).trans h3
      | ⟨4, _⟩ => exact (reducesTo_S4x4x16x4x16x4x16x64_S4x4x4x4x64_d2_4_6.drop_apply_val_of_eq _ 4 7).trans h4
    · apply Shape.reshapeEquiv_eq_of_rowMajor
      rw [Shape.rowMajor_val_five, rowMajor_val_eight]
      show ((((x 0).val * 64 + (x 1).val) * 64 + (x 2).val) * 64 + (x 3).val) * 64 + (x 4).val
        = (((((((x 0).val * 4 + (x 1).val / 16) * 16 + (x 1).val % 16) * 4 + (x 2).val / 16) * 16 + (x 2).val % 16) * 4
            + (x 3).val / 16) * 16 + (x 3).val % 16) * 64 + (x 4).val
      omega

/-- At the ideal values every entry of the first pooled array is the maximum of the volume over the whole
    height × width × depth box of its batch and channel. -/
theorem R1_sup (X : FVec Ideal S4x64x64x64x64 .f32) (y : S4x1x1x1x64.Idx) :
    SupOf (R1 (F := Ideal) X y) (InBin 64 (y 0).val (y 1).val (y 2).val (y 3).val (y 4).val) X :=
  (reduce_sup X shapeCasts_S4x64x64x64x64_S4x1x64x1x64x1x64x64 reducesTo_S4x1x64x1x64x1x64x64_S4x1x1x1x64_d2_4_6 y).congr
    fun x => bin1_iff x y

/-- At the ideal values every entry of the second pooled array is the maximum of the volume over its box of side 32. -/
theorem R2_sup (X : FVec Ideal S4x64x64x64x64 .f32) (y : S4x2x2x2x64.Idx) :
    SupOf (R2 (F := Ideal) X y) (InBin 32 (y 0).val (y 1).val (y 2).val (y 3).val (y 4).val) X :=
  (reduce_sup X shapeCasts_S4x64x64x64x64_S4x2x32x2x32x2x32x64 reducesTo_S4x2x32x2x32x2x32x64_S4x2x2x2x64_d2_4_6 y).congr
    fun x => bin2_iff x y

/-- At the ideal values every entry of the third pooled array is the maximum of the volume over its box of side 16. -/
theorem R3_sup (X : FVec Ideal S4x64x64x64x64 .f32) (y : S4x4x4x4x64.Idx) :
    SupOf (R3 (F := Ideal) X y) (InBin 16 (y 0).val (y 1).val (y 2).val (y 3).val (y 4).val) X :=
  (reduce_sup X shapeCasts_S4x64x64x64x64_S4x4x16x4x16x4x16x64 reducesTo_S4x4x16x4x16x4x16x64_S4x4x4x4x64_d2_4_6 y).congr
    fun x => bin3_iff x y

end Sup

end Cert.ReferenceIdeal.Hand

end
-- ==== Proof.lean ====
/-
  Max-pooling over a 3-D volume at three scales — for p = 1, 2, 4 the channel-wise maximum of x[b, ·, ·, ·, c] over each of
  the p³ boxes of side 64/p, the three results flattened and laid side by side — computed by a kernel that walks the
  height axis in slabs of 8 and keeps a running maximum per bin, against the reference that reshapes the volume and
  reduces the three in-bin axes at once.

  Frames.  The kernel's program and its idealization are the same text (the ideal pass rewrote nothing): the body's run
  on whole staging buffers, by the kind of grid point (which bins restart at the slab), carries the running maxima from
  point to point, and the launch theorem for a region followed by host lines gives the run of @main with the argument
  array untouched.  The reference is a straight line of host operations.

  Values.  Every entry on either side is a maximum of the input over one box at a fixed batch and channel; on the
  extended reals a maximum is determined by its upper bounds, so the kernel's nested maxima (over the slab's heights,
  then depth and width inside the bin, then over the slabs of the bin) and the reference's one reduction over the
  reshaped volume are the same number as soon as they range over the same box.  Only the order on the extended reals is
  used — no arithmetic law —, so the inputs' finiteness is never opened.  Both programs end with the same three
  reshapes and the same concatenation, applied to equal arrays.
-/
import proofs.«177847_j73418170957951_1_alg».proof.Defs
import proofs.«177847_j73418170957951_1_alg».proof.Proof.Gen.Kernel
import proofs.«177847_j73418170957951_1_alg».proof.Proof.Gen.KernelIdeal
import proofs.«177847_j73418170957951_1_alg».proof.Proof.Gen.ReferenceIdeal
import proofs.«177847_j73418170957951_1_alg».proof.Proof.Gen.Pre_finite_inputs
import proofs.«177847_j73418170957951_1_alg».proof.Proof.KFrame
import proofs.«177847_j73418170957951_1_alg».proof.Proof.KITail
import proofs.«177847_j73418170957951_1_alg».proof.Proof.KIValue
import proofs.«177847_j73418170957951_1_alg».proof.Proof.RefValue

noncomputable section

namespace Cert.Proof

open Idealize.ShloMosaic Idealize.ShloMosaic.TcCoe Idealize.SL.Sem Cert.Pool

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end at the same function of three equal arrays: each pooled array of the kernel is, entry by entry,
    the maximum of the input over the entry's box, and so is the reference's. -/
theorem algebraic : Cert.algebraic_KernelIdeal_ReferenceIdeal := by
  intro m ρ m' ρ' _ hagree
  refine ⟨_, Cert.KernelIdeal.Hand.run_value (F := Ideal) m ρ, ?_⟩
  refine (θ_run Cert.ReferenceIdeal.defs _ _).mono (fun _ h c => ⟨(h c).1.trans ?_, (h c).2⟩)
    (Cert.ReferenceIdeal.Hand.run (F := Ideal) m' ρ')
  rw [hagree c]
  have e1 : Cert.ReferenceIdeal.Hand.R1 (F := Ideal) (m ((c.tc : Thread Cert.KernelIdeal.nD Cert.KernelIdeal.τ).loc Cert.KernelIdeal.main_arg0))
      = (Cert.KernelIdeal.Hand.dats m 0 c).arrAt 1 Cert.KernelIdeal.cfg0.N :=
    funext fun y => (Cert.ReferenceIdeal.Hand.R1_sup _ y).unique (Cert.KernelIdeal.Hand.final1 m c y)
  have e2 : Cert.ReferenceIdeal.Hand.R2 (F := Ideal) (m ((c.tc : Thread Cert.KernelIdeal.nD Cert.KernelIdeal.τ).loc Cert.KernelIdeal.main_arg0))
      = (Cert.KernelIdeal.Hand.dats m 0 c).arrAt 2 Cert.KernelIdeal.cfg0.N :=
    funext fun y => (Cert.ReferenceIdeal.Hand.R2_sup _ y).unique (Cert.KernelIdeal.Hand.final2 m c y)
  have e3 : Cert.ReferenceIdeal.Hand.R3 (F := Ideal) (m ((c.tc : Thread Cert.KernelIdeal.nD Cert.KernelIdeal.τ).loc Cert.KernelIdeal.main_arg0))
      = (Cert.KernelIdeal.Hand.dats m 0 c).arrAt 3 Cert.KernelIdeal.cfg0.N :=
    funext fun y => (Cert.ReferenceIdeal.Hand.R3_sup _ y).unique (Cert.KernelIdeal.Hand.final3 m c y)
  rw [e1, e2, e3]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
